-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x64 : Shape := ⟨2, ![100000, 64]⟩
abbrev S256x128 : Shape := ⟨2, ![256, 128]⟩
abbrev S192x64 : Shape := ⟨2, ![192, 64]⟩
abbrev S192 : Shape := ⟨1, ![192]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S256x128 : S_.BroadcastsInDim S256x128 (![] : Fin 0 → Fin S256x128.rank)
  reducesTo_S256x128_S_d0_1 : S256x128.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S192x64 .f32) (main_arg5 : FVec F S192 .f32) (main_arg6 : FVec F S64x64 .f32) (main_arg7 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S192x64 .f32 := Host.absf main_arg4
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192 .f32 := Host.absf main_arg5
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S100000x64 .f32) (main_arg2 : FVec F S100000x64 .f32) (main_arg3 : FVec F S256x128 .f32) (main_arg4 : FVec F S192x64 .f32) (main_arg5 : FVec F S192 .f32) (main_arg6 : FVec F S64x64 .f32) (main_arg7 : FVec F S64 .f32) (main_arg8 : IVec S1600000 32) (main_arg9 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_v13 main_v16
-- ==== Kernel.lean ====
abbrev S100000x128 : Shape := ⟨2, ![100000, 128]⟩
abbrev S100000x64 : Shape := ⟨2, ![100000, 64]⟩
abbrev S256x128 : Shape := ⟨2, ![256, 128]⟩
abbrev S192x64 : Shape := ⟨2, ![192, 64]⟩
abbrev S192 : Shape := ⟨1, ![192]⟩
abbrev S64x64 : Shape := ⟨2, ![64, 64]⟩
abbrev S64 : Shape := ⟨1, ![64]⟩
abbrev S1600000 : Shape := ⟨1, ![1600000]⟩
abbrev S100000x192 : Shape := ⟨2, ![100000, 192]⟩
abbrev S2000x128 : Shape := ⟨2, ![2000, 128]⟩
abbrev S2000x192 : Shape := ⟨2, ![2000, 192]⟩
abbrev S2000x64 : Shape := ⟨2, ![2000, 64]⟩
abbrev S2000x256 : Shape := ⟨2, ![2000, 256]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S3200x64 : Shape := ⟨2, ![3200, 64]⟩
abbrev S1x192 : Shape := ⟨2, ![1, 192]⟩

abbrev nBuf : Space → Nat
  | .hbm => 51
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S100000x64, .f32⟩
  | .hbm, ⟨3, _⟩ => ⟨S256x128, .f32⟩
  | .hbm, ⟨4, _⟩ => ⟨S192x64, .f32⟩
  | .hbm, ⟨5, _⟩ => ⟨S192, .f32⟩
  | .hbm, ⟨6, _⟩ => ⟨S64x64, .f32⟩
  | .hbm, ⟨7, _⟩ => ⟨S64, .f32⟩
  | .hbm, ⟨8, _⟩ => ⟨S1600000, .i32⟩
  | .hbm, ⟨9, _⟩ => ⟨S1600000, .i32⟩
  | .hbm, ⟨10, _⟩ => ⟨S100000x192, .f32⟩
  | .hbm, ⟨11, _⟩ => ⟨S100000x64, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S1x64, .f32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S1x192, .f32⟩
  | .hbm, ⟨50, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S256x128, .f32⟩
  | .local _ .vmem, ⟨3, _⟩ => ⟨S2000x192, .f32⟩
  | .local _ .vmem, ⟨4, _⟩ => ⟨S2000x192, .f32⟩
  | .local _ .vmem, ⟨5, _⟩ => ⟨S2000x64, .f32⟩
  | .local _ .vmem, ⟨6, _⟩ => ⟨S2000x64, .f32⟩
  | .local _ .vmem, ⟨7, _⟩ => ⟨S3200x64, .f32⟩
  | .local _ .vmem, ⟨8, _⟩ => ⟨S3200x64, .f32⟩
  | .local _ .vmem, ⟨9, _⟩ => ⟨S3200x64, .f32⟩
  | .local _ .vmem, ⟨10, _⟩ => ⟨S3200x64, .f32⟩
  | .local _ .vmem, ⟨11, _⟩ => ⟨S3200x64, .f32⟩
  | .local _ .vmem, ⟨12, _⟩ => ⟨S3200x64, .f32⟩
  | .local _ .vmem, ⟨13, _⟩ => ⟨S64x64, .f32⟩
  | .local _ .vmem, ⟨14, _⟩ => ⟨S1x64, .f32⟩
  | .local _ .vmem, ⟨15, _⟩ => ⟨S3200x64, .f32⟩
  | .local _ .vmem, ⟨16, _⟩ => ⟨S3200x64, .f32⟩
  | .local _ .vmem, ⟨17, _⟩ => ⟨S2000x192, .f32⟩
  | .local _ .vmem, ⟨18, _⟩ => ⟨S2000x192, .f32⟩
  | .local _ .vmem, ⟨19, _⟩ => ⟨S2000x64, .f32⟩
  | .local _ .vmem, ⟨20, _⟩ => ⟨S2000x64, .f32⟩
  | .local _ .vmem, ⟨21, _⟩ => ⟨S192x64, .f32⟩
  | .local _ .vmem, ⟨22, _⟩ => ⟨S1x192, .f32⟩
  | .local _ .vmem, ⟨23, _⟩ => ⟨S2000x64, .f32⟩
  | .local _ .vmem, ⟨24, _⟩ => ⟨S2000x64, .f32⟩
  | .local _ .vmem, ⟨25, _⟩ => ⟨S2000x128, .f32⟩
  | .local _ .vmem, ⟨26, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S3200x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S192x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  slices_S2000x256_o0_0_S2000x192 : S2000x256.Slices ![0, 0] S2000x192
  inb_S2000x192_S2000x192_0_0 : ∀ a, (![0, 0] : Fin 2 → Nat) a + S2000x192.size a ≤ S2000x192.size a
  h_S2000x192 : 0 < S2000x192.numel
  slices_S2000x256_o0_192_S2000x64 : S2000x256.Slices ![0, 192] S2000x64
  inb_S2000x64_S2000x64_0_0 : ∀ a, (![0, 0] : Fin 2 → Nat) a + S2000x64.size a ≤ S2000x64.size a
  h_S2000x64 : 0 < S2000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  bcast_S_S100000x64 : S_.BroadcastsInDim S100000x64 (![] : Fin 0 → Fin S100000x64.rank)
  shapeCasts_S192_S1x192 : S192.ShapeCasts S1x192
  shapeCasts_S2000x64_S2000x64 : S2000x64.ShapeCasts S2000x64
  inb_S192x64_S192x64_0_0 : ∀ a, (![0, 0] : Fin 2 → Nat) a + S192x64.size a ≤ S192x64.size a
  h_S192x64 : 0 < S192x64.numel
  shapeCasts_S2000x192_S2000x192 : S2000x192.ShapeCasts S2000x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  concatenates_S2000x64_S2000x64_S2000x128_d1 : Shape.Concatenates [S2000x64, S2000x64] S2000x128 1
  dot_S2000x128_S256x128_S2000x256_1_1_0_0_n_n_wf : DotDims.WF S2000x128 S256x128 S2000x256 [1] [1] [0] [0] [] []
  gather_S100000x64_S1600000x1_S1600000x64_1_0_n_n_0_1_164_wf : GatherDims.WF S100000x64 S1600000x1 S1600000x64 [1] [0] [] [0] [] 1 ![1, 64]
  dot_S3200x64_S64x64_S3200x64_1_1_0_0_n_n_wf : DotDims.WF S3200x64 S64x64 S3200x64 [1] [1] [0] [0] [] []
  scatter_S100000x64_S1600000x1_S1600000x64_1_0_0_1_wf : ScatterDims.WF S100000x64 S1600000x1 S1600000x64 [1] [0] [0] 1
  dot_S2000x64_S192x64_S2000x192_1_1_0_0_n_n_wf : DotDims.WF S2000x64 S192x64 S2000x192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x192.size a ≤ S100000x192.size a
  hwx0_2 : ∀ i : grid0.Coords, EltTy.bits .f32 = 32 ∨ (Rect.block (s := S100000x192) S2000x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x64.size a ≤ S1600000x64.size a
  hwx1_0 : ∀ i : grid1.Coords, EltTy.bits .f32 = 32 ∨ (Rect.block (s := S1600000x64) S3200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S1600000x64.size a
  hwx1_1 : ∀ i : grid1.Coords, EltTy.bits .f32 = 32 ∨ (Rect.block (s := S1600000x64) S3200x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x64.size a ≤ S1600000x64.size a
  hwx1_2 : ∀ i : grid1.Coords, EltTy.bits .f32 = 32 ∨ (Rect.block (s := S1600000x64) S3200x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3200x64.size a ≤ S1600000x64.size a
  hwx1_5 : ∀ i : grid1.Coords, EltTy.bits .f32 = 32 ∨ (Rect.block (s := S1600000x64) S3200x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x192.size a ≤ S100000x192.size a
  hwx2_0 : ∀ i : grid2.Coords, EltTy.bits .f32 = 32 ∨ (Rect.block (s := S100000x192) S2000x192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S192x64.size a ≤ S192x64.size a
  hwx2_2 : ∀ i : grid2.Coords, EltTy.bits .f32 = 32 ∨ (Rect.block (s := S192x64) S192x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x192.size a ≤ S1x192.size a
  hwx2_3 : ∀ i : grid2.Coords, EltTy.bits .f32 = 32 ∨ (Rect.block (s := S1x192) S1x192.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)

variable [Facts₀]

def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S3200x64_S64x64_S3200x64_1_1_0_0_n_n : DotDims S3200x64 S64x64 S3200x64 where
  lhsContracting := [1]
  rhsContracting := [1]
  lhsNonContracting := [0]
  rhsNonContracting := [0]
  lhsBatch := []
  rhsBatch := []
  wf := dot_S3200x64_S64x64_S3200x64_1_1_0_0_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S192x64_S2000x192_1_1_0_0_n_n : DotDims S2000x64 S192x64 S2000x192 where
  lhsContracting := [1]
  rhsContracting := [1]
  lhsNonContracting := [0]
  rhsNonContracting := [0]
  lhsBatch := []
  rhsBatch := []
  wf := dot_S2000x64_S192x64_S2000x192_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2000x192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S3200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S3200x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S3200x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0_0) S2000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S192x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S2000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v31) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S100000x64 : Shape := ⟨2, ![100000, 64]⟩
abbrev S256x128 : Shape := ⟨2, ![256, 128]⟩
abbrev S192x64 : Shape := ⟨2, ![192, 64]⟩
abbrev S192 : Shape := ⟨1, ![192]⟩
abbrev S64x64 : Shape := ⟨2, ![64, 64]⟩
abbrev S64 : Shape := ⟨1, ![64]⟩
abbrev S1600000 : Shape := ⟨1, ![1600000]⟩
abbrev S128x256 : Shape := ⟨2, ![128, 256]⟩
abbrev S100000x256 : Shape := ⟨2, ![100000, 256]⟩
abbrev S100000x192 : Shape := ⟨2, ![100000, 192]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S64x192 : Shape := ⟨2, ![64, 192]⟩
abbrev S1x192 : Shape := ⟨2, ![1, 192]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S100000x64, .f32⟩
  | .hbm, ⟨3, _⟩ => ⟨S256x128, .f32⟩
  | .hbm, ⟨4, _⟩ => ⟨S192x64, .f32⟩
  | .hbm, ⟨5, _⟩ => ⟨S192, .f32⟩
  | .hbm, ⟨6, _⟩ => ⟨S64x64, .f32⟩
  | .hbm, ⟨7, _⟩ => ⟨S64, .f32⟩
  | .hbm, ⟨8, _⟩ => ⟨S1600000, .i32⟩
  | .hbm, ⟨9, _⟩ => ⟨S1600000, .i32⟩
  | .hbm, ⟨10, _⟩ => ⟨S128x256, .f32⟩
  | .hbm, ⟨11, _⟩ => ⟨S100000x256, .f32⟩
  | .hbm, ⟨12, _⟩ => ⟨S100000x192, .f32⟩
  | .hbm, ⟨13, _⟩ => ⟨S100000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S64x64, .f32⟩
  | .hbm, ⟨46, _⟩ => ⟨S1600000x64, .f32⟩
  | .hbm, ⟨47, _⟩ => ⟨S1600000x64, .f32⟩
  | .hbm, ⟨48, _⟩ => ⟨S1x64, .f32⟩
  | .hbm, ⟨49, _⟩ => ⟨S1600000x64, .f32⟩
  | .hbm, ⟨50, _⟩ => ⟨S1600000x64, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S1600000x64, .f32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S64x192, .f32⟩
  | .hbm, ⟨65, _⟩ => ⟨S100000x192, .f32⟩
  | .hbm, ⟨66, _⟩ => ⟨S100000x192, .f32⟩
  | .hbm, ⟨67, _⟩ => ⟨S1x192, .f32⟩
  | .hbm, ⟨68, _⟩ => ⟨S100000x192, .f32⟩
  | .hbm, ⟨69, _⟩ => ⟨S100000x192, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]

class Facts₀ : Prop where
  transposes_S256x128_S128x256_1_0 : S256x128.Transposes [1, 0] S128x256
  slices_S100000x256_S100000x192_0_0 : S100000x256.Slices ![0, 0] S100000x192
  slices_S100000x256_S100000x64_0_192 : S100000x256.Slices ![0, 192] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  concatenates_S100000x64_S100000x64_S100000x128_d1 : Shape.Concatenates [S100000x64, S100000x64] S100000x128 1
  dot_S100000x128_S128x256_S100000x256_1_0_0_1_n_n_wf : DotDims.WF S100000x128 S128x256 S100000x256 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S1600000x64_S64x64_S1600000x64_1_0_0_1_n_n_wf : DotDims.WF S1600000x64 S64x64 S1600000x64 [1] [0] [0] [1] [] []
  dot_S100000x64_S64x192_S100000x192_1_0_0_1_n_n_wf : DotDims.WF S100000x64 S64x192 S100000x192 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf

class Facts : Prop extends Facts₀ where

variable [Facts]
-- ==== Proof.Spec.lean ====
/-
  The child-sum tree-LSTM step as plain functions of whole arrays, entry by entry, on the extended reals.

  x : [100000, 128] node inputs, w : [256, 128] the stacked input weights. Column j of the input projection of node n
  is  ∑ₖ x[n, k] · w[j, k];  columns 0 … 191 are the three gates' pre-activations, columns 192 … 255 the forget gate's.
  Along an edge e, with the child's hidden row hs[e, ·], its cell row cs[e, ·] and the parent's forget row fxd[e, ·]:
      cf[e, q] = σ(fxd[e, q] + ∑ₖ hs[e, k] · uf[q, k] + b[0, q]) · cs[e, q],      σ(t) = 1 / (1 + e⁻ᵗ).
  At a node n, with the summed child hidden rows ht[n, ·] and the summed gated child cells cagg[n, ·]:
      g[n, j] = ioux[n, j] + ∑ₖ ht[n, k] · u[j, k] + b[0, j]           (j < 192: input, output and update gates)
      c[n, q] = σ(g[n, q]) · tanh(g[n, q + 128]) + cagg[n, q]
      h[n, q] = σ(g[n, q + 64]) · tanh(c[n, q])
  and the result row is h[n, ·] followed by c[n, ·].
-/
import Idealize.ShloMosaic.PureOps.Ideal
import Idealize.ShloMosaic.Lib.ValueIdx

noncomputable section

namespace Cert.Spec

open Idealize.ShloMosaic Idealize.ShloMosaic.ValueIdx

/-- A float matrix on the extended reals. -/
abbrev Mat (r c : ℕ) : Type := FVec Ideal ⟨2, ![r, c]⟩ .f32

/-- Columns 0 … 191 of x · wᵀ. -/
def projIou (x : Mat 100000 128) (w : Mat 256 128) : Mat 100000 192 := fun i =>
  ∑ k : Fin 128, x (ix2 (⟨(i 0).val, idx2_lt0 i⟩ : Fin 100000) k)
    * w (ix2 (⟨(i 1).val, Nat.lt_trans (idx2_lt1 i) (by decide)⟩ : Fin 256) k)

/-- Columns 192 … 255 of x · wᵀ. -/
def projF (x : Mat 100000 128) (w : Mat 256 128) : Mat 100000 64 := fun i =>
  ∑ k : Fin 128, x (ix2 (⟨(i 0).val, idx2_lt0 i⟩ : Fin 100000) k)
    * w (ix2 (⟨(i 1).val + 192, Nat.add_lt_add_right (idx2_lt1 i) 192⟩ : Fin 256) k)

/-- A vector of 64 entries as a one-row matrix. -/
def row64 (v : FVec Ideal ⟨1, ![64]⟩ .f32) : Mat 1 64 := fun j => v (ix1 (⟨(j 1).val, idx2_lt1 j⟩ : Fin 64))

/-- A vector of 192 entries as a one-row matrix. -/
def row192 (v : FVec Ideal ⟨1, ![192]⟩ .f32) : Mat 1 192 := fun j => v (ix1 (⟨(j 1).val, idx2_lt1 j⟩ : Fin 192))

/-- The gated child cell along each edge. -/
def edge (hs cs fxd : Mat 1600000 64) (uf : Mat 64 64) (b : Mat 1 64) : Mat 1600000 64 := fun i =>
  Ideal.logistic
      (fxd i + (∑ k : Fin 64, hs (ix2 (⟨(i 0).val, idx2_lt0 i⟩ : Fin 1600000) k) * uf (ix2 (⟨(i 1).val, idx2_lt1 i⟩ : Fin 64) k))
        + b (ix2 (0 : Fin 1) (⟨(i 1).val, idx2_lt1 i⟩ : Fin 64)))
    * cs i

/-- The three gates' pre-activations at each node. -/
def gates (ioux : Mat 100000 192) (ht : Mat 100000 64) (u : Mat 192 64) (b : Mat 1 192) : Mat 100000 192 := fun i =>
  ioux i + (∑ k : Fin 64, ht (ix2 (⟨(i 0).val, idx2_lt0 i⟩ : Fin 100000) k) * u (ix2 (⟨(i 1).val, idx2_lt1 i⟩ : Fin 192) k))
    + b (ix2 (0 : Fin 1) (⟨(i 1).val, idx2_lt1 i⟩ : Fin 192))

/-- The new cell state. -/
def cell (g : Mat 100000 192) (cagg : Mat 100000 64) : Mat 100000 64 := fun i =>
  Ideal.logistic (g (ix2 (⟨(i 0).val, idx2_lt0 i⟩ : Fin 100000) (⟨(i 1).val, Nat.lt_trans (idx2_lt1 i) (by decide)⟩ : Fin 192)))
      * Ideal.tanh (g (ix2 (⟨(i 0).val, idx2_lt0 i⟩ : Fin 100000) (⟨(i 1).val + 128, Nat.add_lt_add_right (idx2_lt1 i) 128⟩ : Fin 192)))
    + cagg i

/-- The new hidden state. -/
def hidden (g : Mat 100000 192) (c : Mat 100000 64) : Mat 100000 64 := fun i =>
  Ideal.logistic (g (ix2 (⟨(i 0).val, idx2_lt0 i⟩ : Fin 100000) (⟨(i 1).val + 64, Nat.lt_trans (Nat.add_lt_add_right (idx2_lt1 i) 64) (by decide)⟩ : Fin 192)))
    * Ideal.tanh (c i)

/-- The node update: the hidden row followed by the cell row. -/
def final (ioux : Mat 100000 192) (ht : Mat 100000 64) (u : Mat 192 64) (b : Mat 1 192) (cagg : Mat 100000 64) : Mat 100000 128 := fun i =>
  if h : (i 1).val < 64 then
    hidden (gates ioux ht u b) (cell (gates ioux ht u b) cagg) (ix2 (⟨(i 0).val, idx2_lt0 i⟩ : Fin 100000) (⟨(i 1).val, h⟩ : Fin 64))
  else
    cell (gates ioux ht u b) cagg (ix2 (⟨(i 0).val, idx2_lt0 i⟩ : Fin 100000) (⟨(i 1).val - 64, by have := idx2_lt1 i; omega⟩ : Fin 64))

end Cert.Spec

end
-- ==== Proof.Step.lean ====
/-
  The whole tree-LSTM step as one function of its ten arguments, over an abstract row gather and an abstract segment sum.

  `gath t e` stands for "the rows of t at the edge endpoints e" and `seg e u` for "the rows of u summed by endpoint e";
  what they do with an endpoint outside the table is theirs to say, and nothing here depends on it: the step only
  composes them with the projection, the edge gate and the node update.
-/
import proofs.«143589_j25323127177890_1_alg».proof.Proof.Spec

noncomputable section

namespace Cert.Spec

open Idealize.ShloMosaic Idealize.ShloMosaic.ValueIdx

/-- One endpoint per edge. -/
abbrev Ends : Type := IVec ⟨1, ![1600000]⟩ 32

def step (gath : Mat 100000 64 → Ends → Mat 1600000 64) (seg : Ends → Mat 1600000 64 → Mat 100000 64)
    (x : Mat 100000 128) (hc cc : Mat 100000 64) (w : Mat 256 128) (u : Mat 192 64) (bu : FVec Ideal ⟨1, ![192]⟩ .f32)
    (uf : Mat 64 64) (bf : FVec Ideal ⟨1, ![64]⟩ .f32) (src dst : Ends) : Mat 100000 128 :=
  final (projIou x w) (seg dst (gath hc src)) u (row192 bu)
    (seg dst (edge (gath hc src) (gath cc src) (gath (projF x w) dst) uf (row64 bf)))

end Cert.Spec

end
-- ==== Proof.LibDenseT.lean ====
/-
  A matrix product against a transposed right operand, read at an entry.

  For dimension numbers that contract the left operand's axis 1 with the right operand's axis 1 and have no batch axis,
  entry (p, q) of an [M × K] by [N × K] product is the sum over k of left (p, k) times right (q, k): each row of the
  left operand against each row of the right one. Stated for the vector unit's product into a zero accumulator and
  into any accumulator. The hypotheses are the printed dimension numbers, each closed by `rfl` at a use.
-/
import Idealize.ShloMosaic.PureOps.Ideal
import Idealize.ShloMosaic.PureOps.Ideal.Laws
import Idealize.ShloMosaic.Lib.ValueIdx

noncomputable section

namespace Cert.LibDenseT

open Idealize.ShloMosaic Idealize.ShloMosaic.ValueIdx

variable {M K N : ℕ} (d : DotDims ⟨2, ![M, K]⟩ ⟨2, ![N, K]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = []) (hrb : d.rhsBatch = [])
    (j : (⟨2, ![M, N]⟩ : Shape).Idx) (k : d.contr.Idx) : (d.rhsIdx j k 0).val = (j 1).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The right operand's column is the contraction index. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (q, k). -/
theorem sum_contr (hlc : d.lhsContracting = [1]) (hrc : d.rhsContracting = [1]) (hln : d.lhsNonContracting = [0])
    (hrn : d.rhsNonContracting = [0]) (hlb : d.lhsBatch = []) (hrb : d.rhsBatch = [])
    (x : (⟨2, ![M, K]⟩ : Shape).Idx → EReal) (w : (⟨2, ![N, K]⟩ : Shape).Idx → EReal) (p : Fin M) (q : Fin N) :
    ∑ k : d.contr.Idx, x (d.lhsIdx (ix2 p q) k) * w (d.rhsIdx (ix2 p q) k) = ∑ kk : Fin K, x (ix2 p kk) * w (ix2 q kk) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 q kk := by
    funext a; apply Fin.ext
    match a with
    | ⟨0, _⟩ => exact rhs_row d hln hrn hlb hrb _ _
    | ⟨1, _⟩ => exact (rhs_col d hrc _ _).trans hk
  rw [el, er]

/-- The vector unit's product into a zero accumulator, read at (p, q). -/
theorem matmul_zero_apply {φ₁ φ₂ : FTy} (prec : Option ContractPrecision)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (p : Fin M) (q : Fin N) :
    FloatOps.matmul d prec x w (constant ⟨2, ![M, N]⟩ .f32 0x00000000#32) (ix2 p q) = ∑ kk : Fin K, x (ix2 p kk) * w (ix2 q kk) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 q kk) := by
  rw [Ideal.matmul_apply]
  exact congrArg (acc (ix2 p q) + ·) (sum_contr d hlc hrc hln hrn hlb hrb x w p q)

end Cert.LibDenseT

end
-- ==== Proof.Proj.lean ====
/-
  The input projection as the first kernel region leaves it.

  Grid point t of 50 loads rows 2000·t … 2000·t + 1999 of x and all of w, forms the [2000 × 256] product of those
  rows against the rows of w, and stores its columns 0 … 191 as block t of the first result and its columns
  192 … 255 as block t of the second. The 50 blocks tile the 100000 rows, so the two arrays end holding
  columns 0 … 191 and 192 … 255 of x · wᵀ, whatever the region found in them.
-/
import proofs.«143589_j25323127177890_1_alg».proof.Proof.Gen.KernelIdeal.Frame
import proofs.«143589_j25323127177890_1_alg».proof.Proof.Spec
import proofs.«143589_j25323127177890_1_alg».proof.Proof.LibDenseT
import Idealize.ShloMosaic.Lib.Pipeline.Value
import Idealize.ShloMosaic.Lib.ValueIdx
import Idealize.ShloMosaic.PureOps.Ideal.Laws

set_option maxRecDepth 16384

noncomputable section

namespace Cert.KernelIdeal.ProjValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (p, q) of the block product: row p of the loaded rows of x against row q of w. -/
theorem prod_apply (x0 : Vec Ideal S2000x128 .f32) (x1 : Vec Ideal S256x128 .f32) (p : Fin 2000) (q : Fin 256) :
    k0_pay1 (F := Ideal) x0 x1 (ix2 p q) = ∑ k : Fin 128, x0 (ix2 p k) * x1 (ix2 q k) := by
  unfold k0_pay1
  exact Cert.LibDenseT.matmul_zero_apply dot_S2000x128_S256x128_S2000x256_1_1_0_0_n_n none rfl rfl rfl rfl rfl rfl _ _ p q

/-- The first stored slice keeps the product's columns 0 … 191. -/
theorem iou_apply (x0 : Vec Ideal S2000x128 .f32) (x1 : Vec Ideal S256x128 .f32) (p : Fin 2000) (q : Fin 192) :
    k0_pay2 (F := Ideal) x0 x1 (ix2 p q)
      = ∑ k : Fin 128, x0 (ix2 p k) * x1 (ix2 (⟨q.val, Nat.lt_trans q.isLt (by decide)⟩ : Fin 256) k) := by
  unfold k0_pay2
  refine (extractStridedSlice_apply _ _ _ (ix2 p q) (ix2 p (⟨q.val, Nat.lt_trans q.isLt (by decide)⟩ : Fin 256)) ?_).trans (prod_apply x0 x1 p _)
  intro a
  match a with
  | ⟨0, _⟩ => exact (Nat.zero_add _).symm
  | ⟨1, _⟩ => exact (Nat.zero_add _).symm

/-- The second stored slice keeps the product's columns 192 … 255. -/
theorem f_apply (x0 : Vec Ideal S2000x128 .f32) (x1 : Vec Ideal S256x128 .f32) (p : Fin 2000) (q : Fin 64) :
    k0_pay3 (F := Ideal) x0 x1 (ix2 p q)
      = ∑ k : Fin 128, x0 (ix2 p k) * x1 (ix2 (⟨q.val + 192, Nat.add_lt_add_right q.isLt 192⟩ : Fin 256) k) := by
  unfold k0_pay3
  refine (extractStridedSlice_apply _ _ _ (ix2 p q) (ix2 p (⟨q.val + 192, Nat.add_lt_add_right q.isLt 192⟩ : Fin 256)) ?_).trans (prod_apply x0 x1 p _)
  intro a
  match a with
  | ⟨0, _⟩ => exact (Nat.zero_add _).symm
  | ⟨1, _⟩ => exact Nat.add_comm _ _

/-- The printed index maps over the grid: the rows' block index is the point's, below 50; every other block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the block of x at point t is row 2000·t + p of x. -/
theorem x_blk (c : Dev nD) (t : Fin cfg0.N) (p : Fin 2000) (k : Fin 128) :
    iblk0 V c 0 t (ix2 p k) = V c main_arg0 (ix2 (⟨2000 * t.val + p.val, by have := t.isLt; have := p.isLt; have : cfg0.N = 50 := N_0; omega⟩ : Fin 100000) k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega

/-- The block of w at every point is all of w. -/
theorem w_blk (c : Dev nD) (t : Fin cfg0.N) (q : Fin 256) (k : Fin 128) :
    iblk0 V c 1 t (ix2 q k) = V c main_arg3 (ix2 q k) := by
  obtain ⟨-, -, e0, e1, -⟩ := idx_facts t
  show V c main_arg3 (((cfg0.win 1).blk t).view.emb (ix2 q k)) = _
  refine congrArg (V c main_arg3) (funext fun a => Fin.ext ?_)
  match a with
  | ⟨0, _⟩ => show win0_1.index t (0 : Fin 2) * 256 + 1 * q.val = q.val; omega
  | ⟨1, _⟩ => show win0_1.index t (1 : Fin 2) * 128 + 1 * k.val = k.val; omega

/-- Entry (p, q) of output block t sits at row 2000·t + p of the array. -/
theorem iou_emb (t : Fin cfg0.N) (p : Fin 2000) (q : Fin 192) :
    ((cfg0.win 2).blk t).view.emb (ix2 p q)
      = (ix2 (⟨2000 * t.val + p.val, by have := t.isLt; have := p.isLt; have : cfg0.N = 50 := N_0; omega⟩ : Fin 100000) q : S100000x192.Idx) := by
  obtain ⟨-, -, -, -, e0, e1, -⟩ := idx_facts t
  funext a; apply Fin.ext
  match a with
  | ⟨0, _⟩ => show win0_2.index t (0 : Fin 2) * 2000 + 1 * p.val = 2000 * t.val + p.val; omega
  | ⟨1, _⟩ => show win0_2.index t (1 : Fin 2) * 192 + 1 * q.val = q.val; omega

theorem f_emb (t : Fin cfg0.N) (p : Fin 2000) (q : Fin 64) :
    ((cfg0.win 3).blk t).view.emb (ix2 p q)
      = (ix2 (⟨2000 * t.val + p.val, by have := t.isLt; have := p.isLt; have : cfg0.N = 50 := N_0; omega⟩ : Fin 100000) q : S100000x64.Idx) := by
  obtain ⟨-, -, -, -, -, -, e0, e1⟩ := idx_facts t
  funext a; apply Fin.ext
  match a with
  | ⟨0, _⟩ => show win0_3.index t (0 : Fin 2) * 2000 + 1 * p.val = 2000 * t.val + p.val; omega
  | ⟨1, _⟩ => show win0_3.index t (1 : Fin 2) * 64 + 1 * q.val = q.val; omega

/-- What point t writes back to the first result is block t of columns 0 … 191 of x · wᵀ. -/
theorem iou_flushed (c : Dev nD) (t : Fin cfg0.N) :
    (dat0 V c).flushed 2 t
      = ((cfg0.win 2).blk t).view.read (Elt Ideal) (Cert.Spec.projIou (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S256x128) hz]
  funext j
  obtain ⟨p, q, rfl⟩ : ∃ (p : Fin 2000) (q : Fin 192), j = ix2 p q := ⟨j 0, j 1, eq_ix2 j⟩
  show k0_pay2 (iblk0 V c 0 t) (iblk0 V c 1 t) (ix2 p q)
    = Cert.Spec.projIou (V c main_arg0) (V c main_arg3) (((cfg0.win 2).blk t).view.emb (ix2 p q))
  refine (iou_apply _ _ p q).trans ?_
  rw [iou_emb]
  unfold Cert.Spec.projIou
  refine Finset.sum_congr rfl fun k _ => ?_
  rw [x_blk, w_blk]

/-- What point t writes back to the second result is block t of columns 192 … 255 of x · wᵀ. -/
theorem f_flushed (c : Dev nD) (t : Fin cfg0.N) :
    (dat0 V c).flushed 3 t
      = ((cfg0.win 3).blk t).view.read (Elt Ideal) (Cert.Spec.projF (V c main_arg0) (V c main_arg3)) := by
  show (cfg0.win 3).cut (grid0.coords t) ((dat0 V c).after 3 t) = _
  rw [after0_3]
  unfold out0_3
  rw [View.canon_unit_zero hz]
  simp only [View.ld_unit_zero (S := S2000x128) hz, View.ld_unit_zero (S := S256x128) hz]
  funext j
  obtain ⟨p, q, rfl⟩ : ∃ (p : Fin 2000) (q : Fin 64), j = ix2 p q := ⟨j 0, j 1, eq_ix2 j⟩
  show k0_pay3 (iblk0 V c 0 t) (iblk0 V c 1 t) (ix2 p q)
    = Cert.Spec.projF (V c main_arg0) (V c main_arg3) (((cfg0.win 3).blk t).view.emb (ix2 p q))
  refine (f_apply _ _ p q).trans ?_
  rw [f_emb]
  unfold Cert.Spec.projF
  refine Finset.sum_congr rfl fun k _ => ?_
  rw [x_blk, w_blk]

/-- An index of the array lies in point t's block iff each coordinate lies in the block's range on its axis. -/
theorem iou_mem_blk (t : Fin cfg0.N) (i : S100000x192.Idx) :
    i ∈ ((cfg0.win 2).blk t).view.set ↔ ∀ a : Fin 2, win0_2.index t a * S2000x192.size a ≤ (i a).val ∧ (i a).val < win0_2.index t a * S2000x192.size a + S2000x192.size a := by
  show i ∈ ((View.whole main_v0_0).slice (win0_2.rect t)).set ↔ _
  rw [View.set_slice_whole, Rect.mem_set_unit]
  exact Iff.rfl

theorem f_mem_blk (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v0_1).slice (win0_3.rect t)).set ↔ _
  rw [View.set_slice_whole, Rect.mem_set_unit]
  exact Iff.rfl

/-- Row r of either result lies in the block of point r / 2000. -/
theorem iou_cover (i : S100000x192.Idx) :
    ∃ t : Fin cfg0.N, (cfg0.win 2).flush t = true ∧ i ∈ ((cfg0.win 2).blk t).view.set := by
  have hi0 : (i 0).val < 100000 := idx2_lt0 i
  have hi1 : (i 1).val < 192 := idx2_lt1 i
  have hN : cfg0.N = 50 := N_0
  refine ⟨⟨(i 0).val / 2000, by omega⟩, flush0_2 _, ?_⟩
  rw [iou_mem_blk]
  obtain ⟨-, -, -, -, e0, e1, -⟩ := idx_facts ⟨(i 0).val / 2000, by omega⟩
  intro a
  match a with
  | ⟨0, _⟩ =>
    show win0_2.index _ (0 : Fin 2) * 2000 ≤ (i 0).val ∧ (i 0).val < win0_2.index _ (0 : Fin 2) * 2000 + 2000
    rw [e0]; show (i 0).val / 2000 * 2000 ≤ (i 0).val ∧ (i 0).val < (i 0).val / 2000 * 2000 + 2000; omega
  | ⟨1, _⟩ =>
    show win0_2.index _ (1 : Fin 2) * 192 ≤ (i 1).val ∧ (i 1).val < win0_2.index _ (1 : Fin 2) * 192 + 192
    rw [e1]; omega

theorem f_cover (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have hN : cfg0.N = 50 := N_0
  refine ⟨⟨(i 0).val / 2000, by omega⟩, flush0_3 _, ?_⟩
  rw [f_mem_blk]
  obtain ⟨-, -, -, -, -, -, e0, e1⟩ := idx_facts ⟨(i 0).val / 2000, by omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 64 ≤ (i 1).val ∧ (i 1).val < win0_3.index _ (1 : Fin 2) * 64 + 64
    rw [e1]; omega

/-- After the region the first result holds columns 0 … 191 of x · wᵀ of the arrays the region was entered with. -/
theorem iou_final (c : Dev nD) :
    (dat0 V c).arrAt 2 cfg0.N = Cert.Spec.projIou (V c main_arg0) (V c main_arg3) :=
  (dat0 V c).arrAt_eq_of_cover 2 _ (fun t _ => iou_flushed V c t) iou_cover

/-- After the region the second result holds columns 192 … 255 of x · wᵀ. -/
theorem f_final (c : Dev nD) :
    (dat0 V c).arrAt 3 cfg0.N = Cert.Spec.projF (V c main_arg0) (V c main_arg3) :=
  (dat0 V c).arrAt_eq_of_cover 3 _ (fun t _ => f_flushed V c t) f_cover

end Cert.KernelIdeal.ProjValue

end
-- ==== Proof.Edge.lean ====
/-
  The gated child cells as the second kernel region leaves them.

  Grid point t of 500 loads rows 3200·t … 3200·t + 3199 of the child hidden rows hs, of the child cell rows cs and of
  the parent forget rows fxd, all of the weights uf [64 × 64] and the one-row bias b. It forms, entry by entry,
      σ(fxd[r, q] + ∑ₖ hs[r, k] · uf[q, k] + b[0, q]) · cs[r, q],       σ(x) = 1 / (1 + e⁻ˣ),
  and stores the [3200 × 64] result as block t of the output. The 500 blocks tile the 1600000 rows, so the output ends
  holding the gated child cell of every edge, whatever the region found in it.
-/
import proofs.«143589_j25323127177890_1_alg».proof.Proof.Gen.KernelIdeal.Frame
import proofs.«143589_j25323127177890_1_alg».proof.Proof.Spec
import proofs.«143589_j25323127177890_1_alg».proof.Proof.LibDenseT
import Idealize.ShloMosaic.Lib.Pipeline.Value
import Idealize.ShloMosaic.Lib.ValueIdx
import Idealize.ShloMosaic.PureOps.Ideal.Laws

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (p, q) of the block product: row p of the loaded rows of hs against row q of uf. -/
theorem dot_apply (hs : Vec Ideal S3200x64 .f32) (uf : Vec Ideal S64x64 .f32) (p : Fin 3200) (q : Fin 64) :
    (matmul dot_S3200x64_S64x64_S3200x64_1_1_0_0_n_n none (truncf .bf16 hs bitsLt_bf16_f32) (truncf .bf16 uf bitsLt_bf16_f32)
        (constant (F := Ideal) S3200x64 .f32 0x00000000#32) : FVec Ideal S3200x64 .f32) (ix2 p q)
      = ∑ k : Fin 64, hs (ix2 p k) * uf (ix2 q k) :=
  Cert.LibDenseT.matmul_zero_apply dot_S3200x64_S64x64_S3200x64_1_1_0_0_n_n none rfl rfl rfl rfl rfl rfl _ _ p q

/-- The bias row repeated down the 3200 rows: entry (p, q) is b[0, q]. -/
theorem bias_apply (b : Vec Ideal S1x64 .f32) (p : Fin 3200) (q : Fin 64) :
    (broadcastTo S3200x64 b broadcasts_S1x64_S3200x64 : FVec Ideal S3200x64 .f32) (ix2 p q) = b (ix2 (0 : Fin 1) q) := by
  refine broadcastTo_apply _ _ _ _ ?_
  intro a
  match a with
  | ⟨0, _⟩ => rfl
  | ⟨1, _⟩ => rfl

/-- Entry (p, q) of what a point stores: the gate of the pre-activation times the child cell. -/
theorem pay_apply (hs : Vec Ideal S3200x64 .f32) (uf : Vec Ideal S64x64 .f32) (fxd : Vec Ideal S3200x64 .f32)
    (b : Vec Ideal S1x64 .f32) (cs : Vec Ideal S3200x64 .f32) (p : Fin 3200) (q : Fin 64) :
    k1_pay1 (F := Ideal) hs uf fxd b cs (ix2 p q)
      = Ideal.logistic (fxd (ix2 p q) + (∑ k : Fin 64, hs (ix2 p k) * uf (ix2 q k)) + b (ix2 (0 : Fin 1) q)) * cs (ix2 p q) := by
  unfold k1_pay1
  simp only [shapeCast_self]
  show Ideal.logistic (fxd (ix2 p q)
      + (matmul dot_S3200x64_S64x64_S3200x64_1_1_0_0_n_n none (truncf .bf16 hs bitsLt_bf16_f32) (truncf .bf16 uf bitsLt_bf16_f32)
          (constant (F := Ideal) S3200x64 .f32 0x00000000#32) : FVec Ideal S3200x64 .f32) (ix2 p q)
      + (broadcastTo S3200x64 b broadcasts_S1x64_S3200x64 : FVec Ideal S3200x64 .f32) (ix2 p q)) * cs (ix2 p q) = _
  rw [dot_apply, bias_apply]

/-- The printed index maps over the grid: a row window's block index is the point's, below 500; every other block index is 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the block of hs at point t is row 3200·t + p of hs. -/
theorem hs_blk (c : Dev nD) (t : Fin cfg1.N) (p : Fin 3200) (k : Fin 64) :
    iblk1 V c 0 t (ix2 p k) = V c main_v7 (ix2 (⟨3200 * t.val + p.val, by have := t.isLt; have := p.isLt; have : cfg1.N = 500 := N_1; omega⟩ : Fin 1600000) k) := by
  obtain ⟨e0, e1, -⟩ := idx_facts t
  show V c main_v7 (((cfg1.win 0).blk t).view.emb (ix2 p k)) = _
  refine congrArg (V c main_v7) (funext fun a => Fin.ext ?_)
  match a with
  | ⟨0, _⟩ => show win1_0.index t (0 : Fin 2) * 3200 + 1 * p.val = 3200 * t.val + p.val; omega
  | ⟨1, _⟩ => show win1_0.index t (1 : Fin 2) * 64 + 1 * k.val = k.val; omega

/-- Row p of the block of cs at point t is row 3200·t + p of cs. -/
theorem cs_blk (c : Dev nD) (t : Fin cfg1.N) (p : Fin 3200) (k : Fin 64) :
    iblk1 V c 1 t (ix2 p k) = V c main_v14 (ix2 (⟨3200 * t.val + p.val, by have := t.isLt; have := p.isLt; have : cfg1.N = 500 := N_1; omega⟩ : Fin 1600000) k) := by
  obtain ⟨-, -, e0, e1, -⟩ := idx_facts t
  show V c main_v14 (((cfg1.win 1).blk t).view.emb (ix2 p k)) = _
  refine congrArg (V c main_v14) (funext fun a => Fin.ext ?_)
  match a with
  | ⟨0, _⟩ => show win1_1.index t (0 : Fin 2) * 3200 + 1 * p.val = 3200 * t.val + p.val; omega
  | ⟨1, _⟩ => show win1_1.index t (1 : Fin 2) * 64 + 1 * k.val = k.val; omega

/-- Row p of the block of fxd at point t is row 3200·t + p of fxd. -/
theorem fxd_blk (c : Dev nD) (t : Fin cfg1.N) (p : Fin 3200) (k : Fin 64) :
    iblk1 V c 2 t (ix2 p k) = V c main_v21 (ix2 (⟨3200 * t.val + p.val, by have := t.isLt; have := p.isLt; have : cfg1.N = 500 := N_1; omega⟩ : Fin 1600000) k) := by
  obtain ⟨-, -, -, -, e0, e1, -⟩ := idx_facts t
  show V c main_v21 (((cfg1.win 2).blk t).view.emb (ix2 p k)) = _
  refine congrArg (V c main_v21) (funext fun a => Fin.ext ?_)
  match a with
  | ⟨0, _⟩ => show win1_2.index t (0 : Fin 2) * 3200 + 1 * p.val = 3200 * t.val + p.val; omega
  | ⟨1, _⟩ => show win1_2.index t (1 : Fin 2) * 64 + 1 * k.val = k.val; omega

/-- The block of uf at every point is all of uf. -/
theorem uf_blk (c : Dev nD) (t : Fin cfg1.N) (q : Fin 64) (k : Fin 64) :
    iblk1 V c 3 t (ix2 q k) = V c main_arg6 (ix2 q k) := by
  obtain ⟨-, -, -, -, -, -, e0, e1, -⟩ := idx_facts t
  show V c main_arg6 (((cfg1.win 3).blk t).view.emb (ix2 q k)) = _
  refine congrArg (V c main_arg6) (funext fun a => Fin.ext ?_)
  match a with
  | ⟨0, _⟩ => show win1_3.index t (0 : Fin 2) * 64 + 1 * q.val = q.val; omega
  | ⟨1, _⟩ => show win1_3.index t (1 : Fin 2) * 64 + 1 * k.val = k.val; omega

/-- The block of b at every point is all of b. -/
theorem b_blk (c : Dev nD) (t : Fin cfg1.N) (z : Fin 1) (q : Fin 64) :
    iblk1 V c 4 t (ix2 z q) = V c main_v22 (ix2 z q) := by
  obtain ⟨-, -, -, -, -, -, -, -, e0, e1, -⟩ := idx_facts t
  show V c main_v22 (((cfg1.win 4).blk t).view.emb (ix2 z q)) = _
  refine congrArg (V c main_v22) (funext fun a => Fin.ext ?_)
  match a with
  | ⟨0, _⟩ => show win1_4.index t (0 : Fin 2) * 1 + 1 * z.val = z.val; omega
  | ⟨1, _⟩ => show win1_4.index t (1 : Fin 2) * 64 + 1 * q.val = q.val; omega

/-- Entry (p, q) of output block t sits at row 3200·t + p of the array. -/
theorem cf_emb (t : Fin cfg1.N) (p : Fin 3200) (q : Fin 64) :
    ((cfg1.win 5).blk t).view.emb (ix2 p q)
      = (ix2 (⟨3200 * t.val + p.val, by have := t.isLt; have := p.isLt; have : cfg1.N = 500 := N_1; omega⟩ : Fin 1600000) q : S1600000x64.Idx) := by
  obtain ⟨-, -, -, -, -, -, -, -, -, -, e0, e1⟩ := idx_facts t
  funext a; apply Fin.ext
  match a with
  | ⟨0, _⟩ => show win1_5.index t (0 : Fin 2) * 3200 + 1 * p.val = 3200 * t.val + p.val; omega
  | ⟨1, _⟩ => show win1_5.index t (1 : Fin 2) * 64 + 1 * q.val = q.val; omega

/-- What point t writes back is block t of the gated child cells. -/
theorem cf_flushed (c : Dev nD) (t : Fin cfg1.N) :
    (dat1 V c).flushed 5 t
      = ((cfg1.win 5).blk t).view.read (Elt Ideal)
          (Cert.Spec.edge (V c main_v7) (V c main_v14) (V c main_v21) (V c main_arg6) (V c main_v22)) := by
  show (cfg1.win 5).cut (grid1.coords t) ((dat1 V c).after 5 t) = _
  rw [after1_5]
  unfold out1_5
  rw [View.canon_unit_zero hz]
  simp only [View.ld_unit_zero (S := S3200x64) hz, View.ld_unit_zero (S := S64x64) hz, View.ld_unit_zero (S := S1x64) hz]
  funext j
  obtain ⟨p, q, rfl⟩ : ∃ (p : Fin 3200) (q : Fin 64), j = ix2 p q := ⟨j 0, j 1, eq_ix2 j⟩
  show k1_pay1 (iblk1 V c 0 t) (iblk1 V c 3 t) (iblk1 V c 2 t) (iblk1 V c 4 t) (iblk1 V c 1 t) (ix2 p q)
    = Cert.Spec.edge (V c main_v7) (V c main_v14) (V c main_v21) (V c main_arg6) (V c main_v22)
        (((cfg1.win 5).blk t).view.emb (ix2 p q))
  refine (pay_apply _ _ _ _ _ p q).trans ?_
  rw [cf_emb, fxd_blk, cs_blk, b_blk]
  unfold Cert.Spec.edge
  refine congrArg (fun s => Ideal.logistic (_ + s + _) * _) (Finset.sum_congr rfl fun k _ => ?_)
  rw [hs_blk, uf_blk]

/-- An index of the array lies in point t's block iff each coordinate lies in the block's range on its axis. -/
theorem cf_mem_blk (t : Fin cfg1.N) (i : S1600000x64.Idx) :
    i ∈ ((cfg1.win 5).blk t).view.set ↔ ∀ a : Fin 2, win1_5.index t a * S3200x64.size a ≤ (i a).val ∧ (i a).val < win1_5.index t a * S3200x64.size a + S3200x64.size a := by
  show i ∈ ((View.whole main_v23).slice (win1_5.rect t)).set ↔ _
  rw [View.set_slice_whole, Rect.mem_set_unit]
  exact Iff.rfl

/-- Row r of the result lies in the block of point r / 3200. -/
theorem cf_cover (i : S1600000x64.Idx) :
    ∃ t : Fin cfg1.N, (cfg1.win 5).flush t = true ∧ i ∈ ((cfg1.win 5).blk t).view.set := by
  have hi0 : (i 0).val < 1600000 := idx2_lt0 i
  have hi1 : (i 1).val < 64 := idx2_lt1 i
  have hN : cfg1.N = 500 := N_1
  refine ⟨⟨(i 0).val / 3200, by omega⟩, flush1_5 _, ?_⟩
  rw [cf_mem_blk]
  obtain ⟨-, -, -, -, -, -, -, -, -, -, e0, e1⟩ := idx_facts ⟨(i 0).val / 3200, by omega⟩
  intro a
  match a with
  | ⟨0, _⟩ =>
    show win1_5.index _ (0 : Fin 2) * 3200 ≤ (i 0).val ∧ (i 0).val < win1_5.index _ (0 : Fin 2) * 3200 + 3200
    rw [e0]; show (i 0).val / 3200 * 3200 ≤ (i 0).val ∧ (i 0).val < (i 0).val / 3200 * 3200 + 3200; omega
  | ⟨1, _⟩ =>
    show win1_5.index _ (1 : Fin 2) * 64 ≤ (i 1).val ∧ (i 1).val < win1_5.index _ (1 : Fin 2) * 64 + 64
    rw [e1]; omega

/-- After the region the result holds the gated child cell of every edge, of the arrays the region was entered with. -/
theorem cf_final (c : Dev nD) :
    (dat1 V c).arrAt 5 cfg1.N
      = Cert.Spec.edge (V c main_v7) (V c main_v14) (V c main_v21) (V c main_arg6) (V c main_v22) := by
  exact (dat1 V c).arrAt_eq_of_cover 5 _ (fun t _ => cf_flushed V c t) cf_cover

end Cert.KernelIdeal.EdgeValue

end
-- ==== Proof.Final.lean ====
/-
  The node update as the third kernel region leaves it.

  Grid point t of 50 loads rows 2000·t … 2000·t + 1999 of the gates' input part ioux, of the summed child hidden rows ht
  and of the summed gated child cells cagg, and all of u and of the bias row b. On those rows it forms
      g = ioux + ht · uᵀ + b,    c = σ(g[·, 0 … 63]) · tanh(g[·, 128 … 191]) + cagg,    h = σ(g[·, 64 … 127]) · tanh(c),
  and stores the rows [h, c] as block t of the result. The 50 blocks tile the 100000 rows, so the result ends holding
  every node's hidden row followed by its cell row, whatever the region found in it.
-/
import proofs.«143589_j25323127177890_1_alg».proof.Proof.Gen.KernelIdeal.Frame
import proofs.«143589_j25323127177890_1_alg».proof.Proof.Spec
import proofs.«143589_j25323127177890_1_alg».proof.Proof.LibDenseT
import Idealize.ShloMosaic.Lib.Pipeline.Value
import Idealize.ShloMosaic.Lib.ValueIdx
import Idealize.ShloMosaic.PureOps.Ideal.Laws

set_option maxRecDepth 16384

noncomputable section

namespace Cert.KernelIdeal.FinalValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The body's arithmetic on the loaded rows -/

/-- The gates' pre-activations on the loaded rows: ioux + ht · uᵀ + the bias row on every row. -/
def gateRows (ht : Vec Ideal S2000x64 .f32) (u : Vec Ideal S192x64 .f32) (ioux : Vec Ideal S2000x192 .f32)
    (b : Vec Ideal S1x192 .f32) : FVec Ideal S2000x192 .f32 :=
  addf
    (addf (shapeCast S2000x192 ioux shapeCasts_S2000x192_S2000x192)
      (matmul dot_S2000x64_S192x64_S2000x192_1_1_0_0_n_n none
        (truncf .bf16 (shapeCast S2000x64 ht shapeCasts_S2000x64_S2000x64) bitsLt_bf16_f32)
        (truncf .bf16 u bitsLt_bf16_f32) (constant S2000x192 .f32 0x00000000#32)))
    (broadcastTo S2000x192 (shapeCast S1x192 b shapeCasts_S1x192_S1x192) broadcasts_S1x192_S2000x192)

/-- The new cell rows: σ of the gates' columns 0 … 63 times tanh of their columns 128 … 191, plus cagg. -/
def cellRows (ht : Vec Ideal S2000x64 .f32) (u : Vec Ideal S192x64 .f32) (ioux : Vec Ideal S2000x192 .f32)
    (b : Vec Ideal S1x192 .f32) (cagg : Vec Ideal S2000x64 .f32) : FVec Ideal S2000x64 .f32 :=
  addf
    (mulf (logistic (extractStridedSlice S2000x64 ![0, 0] (gateRows ht u ioux b) slices_S2000x192_o0_0_S2000x64))
      (tanh (extractStridedSlice S2000x64 ![0, 128] (gateRows ht u ioux b) slices_S2000x192_o0_128_S2000x64)))
    (shapeCast S2000x64 cagg shapeCasts_S2000x64_S2000x64)

/-- The new hidden rows: σ of the gates' columns 64 … 127 times tanh of the new cell rows. -/
def hiddenRows (ht : Vec Ideal S2000x64 .f32) (u : Vec Ideal S192x64 .f32) (ioux : Vec Ideal S2000x192 .f32)
    (b : Vec Ideal S1x192 .f32) (cagg : Vec Ideal S2000x64 .f32) : FVec Ideal S2000x64 .f32 :=
  mulf (logistic (extractStridedSlice S2000x64 ![0, 64] (gateRows ht u ioux b) slices_S2000x192_o0_64_S2000x64))
    (tanh (cellRows ht u ioux b cagg))

/-- The stored value is the hidden rows followed by the cell rows, side by side. -/
theorem pay_eq (ht : Vec Ideal S2000x64 .f32) (u : Vec Ideal S192x64 .f32) (ioux : Vec Ideal S2000x192 .f32)
    (b : Vec Ideal S1x192 .f32) (cagg : Vec Ideal S2000x64 .f32) :
    k2_pay1 (F := Ideal) ht u ioux b cagg
      = concatenate S2000x128 1 [⟨S2000x64, hiddenRows ht u ioux b cagg⟩, ⟨S2000x64, cellRows ht u ioux b cagg⟩]
          concatenates_S2000x64_S2000x64_S2000x128_d1 := rfl

/-- Entry (p, j) of the gates' pre-activations: row p of ioux at j, plus row p of ht against row j of u, plus b at j. -/
theorem gateRows_apply (ht : Vec Ideal S2000x64 .f32) (u : Vec Ideal S192x64 .f32) (ioux : Vec Ideal S2000x192 .f32)
    (b : Vec Ideal S1x192 .f32) (p : Fin 2000) (j : Fin 192) :
    gateRows ht u ioux b (ix2 p j)
      = ioux (ix2 p j) + (∑ k : Fin 64, ht (ix2 p k) * u (ix2 j k)) + b (ix2 (0 : Fin 1) j) := by
  unfold gateRows
  rw [shapeCast_self, shapeCast_self, shapeCast_self, addf_apply, addf_apply]
  have hm : matmul dot_S2000x64_S192x64_S2000x192_1_1_0_0_n_n none (truncf .bf16 ht bitsLt_bf16_f32)
      (truncf .bf16 u bitsLt_bf16_f32) (constant (F := Ideal) S2000x192 .f32 0x00000000#32) (ix2 p j)
        = ∑ k : Fin 64, ht (ix2 p k) * u (ix2 j k) :=
    Cert.LibDenseT.matmul_zero_apply dot_S2000x64_S192x64_S2000x192_1_1_0_0_n_n none rfl rfl rfl rfl rfl rfl _ _ p j
  have hb : broadcastTo S2000x192 b broadcasts_S1x192_S2000x192 (ix2 p j) = b (ix2 (0 : Fin 1) j) := by
    refine broadcastTo_apply _ _ (ix2 p j) (ix2 (0 : Fin 1) j) ?_
    intro a
    match a with
    | ⟨0, _⟩ => rfl
    | ⟨1, _⟩ => rfl
  rw [hm, hb]

/-- Entry (p, q) of the new cell rows. -/
theorem cellRows_apply (ht : Vec Ideal S2000x64 .f32) (u : Vec Ideal S192x64 .f32) (ioux : Vec Ideal S2000x192 .f32)
    (b : Vec Ideal S1x192 .f32) (cagg : Vec Ideal S2000x64 .f32) (p : Fin 2000) (q : Fin 64) :
    cellRows ht u ioux b cagg (ix2 p q)
      = Ideal.logistic (gateRows ht u ioux b (ix2 p (⟨q.val, Nat.lt_trans q.isLt (by decide)⟩ : Fin 192)))
          * Ideal.tanh (gateRows ht u ioux b (ix2 p (⟨q.val + 128, Nat.add_lt_add_right q.isLt 128⟩ : Fin 192)))
        + cagg (ix2 p q) := by
  unfold cellRows
  rw [shapeCast_self]
  have e0 : extractStridedSlice S2000x64 ![0, 0] (gateRows ht u ioux b) slices_S2000x192_o0_0_S2000x64 (ix2 p q)
      = gateRows ht u ioux b (ix2 p (⟨q.val, Nat.lt_trans q.isLt (by decide)⟩ : Fin 192)) := by
    refine extractStridedSlice_apply _ _ _ (ix2 p q) (ix2 p (⟨q.val, Nat.lt_trans q.isLt (by decide)⟩ : Fin 192)) ?_
    intro a
    match a with
    | ⟨0, _⟩ => exact (Nat.zero_add _).symm
    | ⟨1, _⟩ => exact (Nat.zero_add _).symm
  have e2 : extractStridedSlice S2000x64 ![0, 128] (gateRows ht u ioux b) slices_S2000x192_o0_128_S2000x64 (ix2 p q)
      = gateRows ht u ioux b (ix2 p (⟨q.val + 128, Nat.add_lt_add_right q.isLt 128⟩ : Fin 192)) := by
    refine extractStridedSlice_apply _ _ _ (ix2 p q) (ix2 p (⟨q.val + 128, Nat.add_lt_add_right q.isLt 128⟩ : Fin 192)) ?_
    intro a
    match a with
    | ⟨0, _⟩ => exact (Nat.zero_add _).symm
    | ⟨1, _⟩ => exact Nat.add_comm _ _
  show Ideal.logistic (extractStridedSlice S2000x64 ![0, 0] (gateRows ht u ioux b) slices_S2000x192_o0_0_S2000x64 (ix2 p q))
        * Ideal.tanh (extractStridedSlice S2000x64 ![0, 128] (gateRows ht u ioux b) slices_S2000x192_o0_128_S2000x64 (ix2 p q))
      + cagg (ix2 p q) = _
  rw [e0, e2]

/-- Entry (p, q) of the new hidden rows. -/
theorem hiddenRows_apply (ht : Vec Ideal S2000x64 .f32) (u : Vec Ideal S192x64 .f32) (ioux : Vec Ideal S2000x192 .f32)
    (b : Vec Ideal S1x192 .f32) (cagg : Vec Ideal S2000x64 .f32) (p : Fin 2000) (q : Fin 64) :
    hiddenRows ht u ioux b cagg (ix2 p q)
      = Ideal.logistic (gateRows ht u ioux b
            (ix2 p (⟨q.val + 64, Nat.lt_trans (Nat.add_lt_add_right q.isLt 64) (by decide)⟩ : Fin 192)))
          * Ideal.tanh (cellRows ht u ioux b cagg (ix2 p q)) := by
  unfold hiddenRows
  have e1 : extractStridedSlice S2000x64 ![0, 64] (gateRows ht u ioux b) slices_S2000x192_o0_64_S2000x64 (ix2 p q)
      = gateRows ht u ioux b
          (ix2 p (⟨q.val + 64, Nat.lt_trans (Nat.add_lt_add_right q.isLt 64) (by decide)⟩ : Fin 192)) := by
    refine extractStridedSlice_apply _ _ _ (ix2 p q)
      (ix2 p (⟨q.val + 64, Nat.lt_trans (Nat.add_lt_add_right q.isLt 64) (by decide)⟩ : Fin 192)) ?_
    intro a
    match a with
    | ⟨0, _⟩ => exact (Nat.zero_add _).symm
    | ⟨1, _⟩ => exact Nat.add_comm _ _
  show Ideal.logistic (extractStridedSlice S2000x64 ![0, 64] (gateRows ht u ioux b) slices_S2000x192_o0_64_S2000x64 (ix2 p q))
        * Ideal.tanh (cellRows ht u ioux b cagg (ix2 p q)) = _
  rw [e1]

/-- Columns below 64 of the stored value are the hidden rows. -/
theorem pay_hidden (ht : Vec Ideal S2000x64 .f32) (u : Vec Ideal S192x64 .f32) (ioux : Vec Ideal S2000x192 .f32)
    (b : Vec Ideal S1x192 .f32) (cagg : Vec Ideal S2000x64 .f32) (p : Fin 2000) (q : Fin 128) (h : q.val < 64) :
    k2_pay1 (F := Ideal) ht u ioux b cagg (ix2 p q) = hiddenRows ht u ioux b cagg (ix2 p (⟨q.val, h⟩ : Fin 64)) := by
  rw [pay_eq]
  refine concatenate_pair_apply_left (t := S2000x128) (s₁ := S2000x64) (s₂ := S2000x64) _ _ _ _ (ix2 p q) rfl
    (ix2 p (⟨q.val, h⟩ : Fin 64)) ?_
  intro a
  match a with
  | ⟨0, _⟩ => rfl
  | ⟨1, _⟩ => rfl

/-- Columns from 64 on of the stored value are the cell rows, 64 columns along. -/
theorem pay_cell (ht : Vec Ideal S2000x64 .f32) (u : Vec Ideal S192x64 .f32) (ioux : Vec Ideal S2000x192 .f32)
    (b : Vec Ideal S1x192 .f32) (cagg : Vec Ideal S2000x64 .f32) (p : Fin 2000) (q : Fin 128) (h : ¬ q.val < 64) :
    k2_pay1 (F := Ideal) ht u ioux b cagg (ix2 p q)
      = cellRows ht u ioux b cagg (ix2 p (⟨q.val - 64, by have := q.isLt; omega⟩ : Fin 64)) := by
  rw [pay_eq]
  refine concatenate_pair_apply_right (t := S2000x128) (s₁ := S2000x64) (s₂ := S2000x64) _ _ _ _ (ix2 p q) rfl rfl
    (ix2 p (⟨q.val - 64, by have := q.isLt; omega⟩ : Fin 64)) ?_ ?_
  · intro a ha
    match a, ha with
    | ⟨0, _⟩, _ => rfl
    | ⟨1, _⟩, ha => exact absurd (Fin.ext rfl) ha
  · show q.val - 64 + 64 = q.val
    omega

/-! ## The blocks as rows of the arrays -/

/-- The printed index maps over the grid: a row window's block index is the point's, below 50; every other block index is 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row p of block t is row 2000·t + p of the array. -/
abbrev rowOf (t : Fin cfg2.N) (p : Fin 2000) : Fin 100000 :=
  ⟨2000 * t.val + p.val, by have := t.isLt; have := p.isLt; have : cfg2.N = 50 := N_2; omega⟩

/-- Row p of the block of ioux at point t is row 2000·t + p of ioux. -/
theorem ioux_blk (c : Dev nD) (t : Fin cfg2.N) (p : Fin 2000) (j : Fin 192) :
    iblk2 V c 0 t (ix2 p j) = V c main_v0_0 (ix2 (rowOf t p) j) := by
  obtain ⟨e0, e1, -⟩ := idx_facts t
  show V c main_v0_0 (((cfg2.win 0).blk t).view.emb (ix2 p j)) = _
  refine congrArg (V c main_v0_0) (funext fun a => Fin.ext ?_)
  match a with
  | ⟨0, _⟩ => show win2_0.index t (0 : Fin 2) * 2000 + 1 * p.val = 2000 * t.val + p.val; omega
  | ⟨1, _⟩ => show win2_0.index t (1 : Fin 2) * 192 + 1 * j.val = j.val; omega

/-- Row p of the block of ht at point t is row 2000·t + p of ht. -/
theorem ht_blk (c : Dev nD) (t : Fin cfg2.N) (p : Fin 2000) (k : Fin 64) :
    iblk2 V c 1 t (ix2 p k) = V c main_v26 (ix2 (rowOf t p) k) := by
  obtain ⟨-, -, e0, e1, -⟩ := idx_facts t
  show V c main_v26 (((cfg2.win 1).blk t).view.emb (ix2 p k)) = _
  refine congrArg (V c main_v26) (funext fun a => Fin.ext ?_)
  match a with
  | ⟨0, _⟩ => show win2_1.index t (0 : Fin 2) * 2000 + 1 * p.val = 2000 * t.val + p.val; omega
  | ⟨1, _⟩ => show win2_1.index t (1 : Fin 2) * 64 + 1 * k.val = k.val; omega

/-- The block of u at every point is all of u. -/
theorem u_blk (c : Dev nD) (t : Fin cfg2.N) (j : Fin 192) (k : Fin 64) :
    iblk2 V c 2 t (ix2 j k) = V c main_arg4 (ix2 j k) := by
  obtain ⟨-, -, -, -, e0, e1, -⟩ := idx_facts t
  show V c main_arg4 (((cfg2.win 2).blk t).view.emb (ix2 j k)) = _
  refine congrArg (V c main_arg4) (funext fun a => Fin.ext ?_)
  match a with
  | ⟨0, _⟩ => show win2_2.index t (0 : Fin 2) * 192 + 1 * j.val = j.val; omega
  | ⟨1, _⟩ => show win2_2.index t (1 : Fin 2) * 64 + 1 * k.val = k.val; omega

/-- The block of the bias row at every point is the bias row. -/
theorem b_blk (c : Dev nD) (t : Fin cfg2.N) (r : Fin 1) (j : Fin 192) :
    iblk2 V c 3 t (ix2 r j) = V c main_v30 (ix2 r j) := by
  obtain ⟨-, -, -, -, -, -, e0, e1, -⟩ := idx_facts t
  show V c main_v30 (((cfg2.win 3).blk t).view.emb (ix2 r j)) = _
  refine congrArg (V c main_v30) (funext fun a => Fin.ext ?_)
  match a with
  | ⟨0, _⟩ => show win2_3.index t (0 : Fin 2) * 1 + 1 * r.val = r.val; omega
  | ⟨1, _⟩ => show win2_3.index t (1 : Fin 2) * 192 + 1 * j.val = j.val; omega

/-- Row p of the block of cagg at point t is row 2000·t + p of cagg. -/
theorem cagg_blk (c : Dev nD) (t : Fin cfg2.N) (p : Fin 2000) (q : Fin 64) :
    iblk2 V c 4 t (ix2 p q) = V c main_v29 (ix2 (rowOf t p) q) := by
  obtain ⟨-, -, -, -, -, -, -, -, e0, e1, -⟩ := idx_facts t
  show V c main_v29 (((cfg2.win 4).blk t).view.emb (ix2 p q)) = _
  refine congrArg (V c main_v29) (funext fun a => Fin.ext ?_)
  match a with
  | ⟨0, _⟩ => show win2_4.index t (0 : Fin 2) * 2000 + 1 * p.val = 2000 * t.val + p.val; omega
  | ⟨1, _⟩ => show win2_4.index t (1 : Fin 2) * 64 + 1 * q.val = q.val; omega

/-- Entry (p, q) of output block t sits at row 2000·t + p of the array. -/
theorem out_emb (t : Fin cfg2.N) (p : Fin 2000) (q : Fin 128) :
    ((cfg2.win 5).blk t).view.emb (ix2 p q) = (ix2 (rowOf t p) q : S100000x128.Idx) := by
  obtain ⟨-, -, -, -, -, -, -, -, -, -, e0, e1⟩ := idx_facts t
  funext a; apply Fin.ext
  match a with
  | ⟨0, _⟩ => show win2_5.index t (0 : Fin 2) * 2000 + 1 * p.val = 2000 * t.val + p.val; omega
  | ⟨1, _⟩ => show win2_5.index t (1 : Fin 2) * 128 + 1 * q.val = q.val; omega

/-! ## The body on the blocks is the node update on the rows -/

/-- Loaded rows that are row n of ioux and of ht, all of u and the bias row give row n of the gates' pre-activations. -/
theorem gates_rows (ioux : Cert.Spec.Mat 100000 192) (ht : Cert.Spec.Mat 100000 64) (u : Cert.Spec.Mat 192 64)
    (b : Cert.Spec.Mat 1 192) (xh : Vec Ideal S2000x64 .f32) (xu : Vec Ideal S192x64 .f32) (xi : Vec Ideal S2000x192 .f32)
    (xb : Vec Ideal S1x192 .f32) (n : Fin 100000) (p : Fin 2000)
    (hi : ∀ j : Fin 192, xi (ix2 p j) = ioux (ix2 n j)) (hh : ∀ k : Fin 64, xh (ix2 p k) = ht (ix2 n k))
    (hu : ∀ (j : Fin 192) (k : Fin 64), xu (ix2 j k) = u (ix2 j k))
    (hb : ∀ j : Fin 192, xb (ix2 (0 : Fin 1) j) = b (ix2 (0 : Fin 1) j)) (j : Fin 192) :
    gateRows xh xu xi xb (ix2 p j) = Cert.Spec.gates ioux ht u b (ix2 n j) := by
  have hs : (∑ k : Fin 64, xh (ix2 p k) * xu (ix2 j k)) = ∑ k : Fin 64, ht (ix2 n k) * u (ix2 j k) :=
    Finset.sum_congr rfl fun k _ => by rw [hh, hu]
  calc gateRows xh xu xi xb (ix2 p j)
      = xi (ix2 p j) + (∑ k : Fin 64, xh (ix2 p k) * xu (ix2 j k)) + xb (ix2 (0 : Fin 1) j) := gateRows_apply xh xu xi xb p j
    _ = ioux (ix2 n j) + (∑ k : Fin 64, ht (ix2 n k) * u (ix2 j k)) + b (ix2 (0 : Fin 1) j) := by rw [hi, hb, hs]
    _ = Cert.Spec.gates ioux ht u b (ix2 n j) := rfl

/-- The gates' pre-activations on the blocks of point t are rows 2000·t … of the gates' pre-activations of the arrays. -/
theorem gates_blk (c : Dev nD) (t : Fin cfg2.N) (p : Fin 2000) (j : Fin 192) :
    gateRows (iblk2 V c 1 t) (iblk2 V c 2 t) (iblk2 V c 0 t) (iblk2 V c 3 t) (ix2 p j)
      = Cert.Spec.gates (V c main_v0_0) (V c main_v26) (V c main_arg4) (V c main_v30) (ix2 (rowOf t p) j) :=
  gates_rows _ _ _ _ _ _ _ _ (rowOf t p) p (fun j => ioux_blk V c t p j) (fun k => ht_blk V c t p k)
    (fun j k => u_blk V c t j k) (fun j => b_blk V c t 0 j) j

/-- The cell rows on the blocks of point t are rows 2000·t … of the new cell state. -/
theorem cell_blk (c : Dev nD) (t : Fin cfg2.N) (p : Fin 2000) (q : Fin 64) :
    cellRows (iblk2 V c 1 t) (iblk2 V c 2 t) (iblk2 V c 0 t) (iblk2 V c 3 t) (iblk2 V c 4 t) (ix2 p q)
      = Cert.Spec.cell (Cert.Spec.gates (V c main_v0_0) (V c main_v26) (V c main_arg4) (V c main_v30)) (V c main_v29)
          (ix2 (rowOf t p) q) := by
  refine (cellRows_apply _ _ _ _ _ p q).trans ?_
  rw [gates_blk, gates_blk, cagg_blk]
  rfl

/-- The hidden rows on the blocks of point t are rows 2000·t … of the new hidden state. -/
theorem hidden_blk (c : Dev nD) (t : Fin cfg2.N) (p : Fin 2000) (q : Fin 64) :
    hiddenRows (iblk2 V c 1 t) (iblk2 V c 2 t) (iblk2 V c 0 t) (iblk2 V c 3 t) (iblk2 V c 4 t) (ix2 p q)
      = Cert.Spec.hidden (Cert.Spec.gates (V c main_v0_0) (V c main_v26) (V c main_arg4) (V c main_v30))
          (Cert.Spec.cell (Cert.Spec.gates (V c main_v0_0) (V c main_v26) (V c main_arg4) (V c main_v30)) (V c main_v29))
          (ix2 (rowOf t p) q) := by
  refine (hiddenRows_apply _ _ _ _ _ p q).trans ?_
  rw [gates_blk, cell_blk]
  rfl

/-- The node update at a column below 64 is the hidden state there. -/
theorem final_hidden (ioux : Cert.Spec.Mat 100000 192) (ht : Cert.Spec.Mat 100000 64) (u : Cert.Spec.Mat 192 64)
    (b : Cert.Spec.Mat 1 192) (cagg : Cert.Spec.Mat 100000 64) (n : Fin 100000) (q : Fin 128) (h : q.val < 64) :
    Cert.Spec.final ioux ht u b cagg (ix2 n q)
      = Cert.Spec.hidden (Cert.Spec.gates ioux ht u b) (Cert.Spec.cell (Cert.Spec.gates ioux ht u b) cagg)
          (ix2 n (⟨q.val, h⟩ : Fin 64)) := by
  unfold Cert.Spec.final
  exact dif_pos h

/-- The node update at a column from 64 on is the cell state 64 columns back. -/
theorem final_cell (ioux : Cert.Spec.Mat 100000 192) (ht : Cert.Spec.Mat 100000 64) (u : Cert.Spec.Mat 192 64)
    (b : Cert.Spec.Mat 1 192) (cagg : Cert.Spec.Mat 100000 64) (n : Fin 100000) (q : Fin 128) (h : ¬ q.val < 64) :
    Cert.Spec.final ioux ht u b cagg (ix2 n q)
      = Cert.Spec.cell (Cert.Spec.gates ioux ht u b) cagg
          (ix2 n (⟨q.val - 64, by have := q.isLt; omega⟩ : Fin 64)) := by
  unfold Cert.Spec.final
  exact dif_neg h

/-! ## From the blocks to the array -/

/-- What point t writes back to the result is block t of the node update of the arrays the region was entered with. -/
theorem out_flushed (c : Dev nD) (t : Fin cfg2.N) :
    (dat2 V c).flushed 5 t
      = ((cfg2.win 5).blk t).view.read (Elt Ideal)
          (Cert.Spec.final (V c main_v0_0) (V c main_v26) (V c main_arg4) (V c main_v30) (V c main_v29)) := by
  show (cfg2.win 5).cut (grid2.coords t) ((dat2 V c).after 5 t) = _
  rw [after2_5]
  unfold out2_5
  rw [View.canon_unit_zero hz]
  simp only [View.ld_unit_zero (S := S2000x64) hz, View.ld_unit_zero (S := S192x64) hz,
    View.ld_unit_zero (S := S2000x192) hz, View.ld_unit_zero (S := S1x192) hz]
  funext j
  obtain ⟨p, q, rfl⟩ : ∃ (p : Fin 2000) (q : Fin 128), j = ix2 p q := ⟨j 0, j 1, eq_ix2 j⟩
  show k2_pay1 (iblk2 V c 1 t) (iblk2 V c 2 t) (iblk2 V c 0 t) (iblk2 V c 3 t) (iblk2 V c 4 t) (ix2 p q)
    = Cert.Spec.final (V c main_v0_0) (V c main_v26) (V c main_arg4) (V c main_v30) (V c main_v29)
        (((cfg2.win 5).blk t).view.emb (ix2 p q))
  rw [out_emb]
  by_cases h : q.val < 64
  · refine (pay_hidden _ _ _ _ _ p q h).trans ?_
    rw [final_hidden _ _ _ _ _ _ q h]
    exact hidden_blk V c t p _
  · refine (pay_cell _ _ _ _ _ p q h).trans ?_
    rw [final_cell _ _ _ _ _ _ q h]
    exact cell_blk V c t p _

/-- An index of the array lies in point t's block iff each coordinate lies in the block's range on its axis. -/
theorem out_mem_blk (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v31).slice (win2_5.rect t)).set ↔ _
  rw [View.set_slice_whole, Rect.mem_set_unit]
  exact Iff.rfl

/-- Row r of the result lies in the block of point r / 2000. -/
theorem out_cover (i : S100000x128.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  have hN : cfg2.N = 50 := N_2
  refine ⟨⟨(i 0).val / 2000, by omega⟩, flush2_5 _, ?_⟩
  rw [out_mem_blk]
  obtain ⟨-, -, -, -, -, -, -, -, -, -, e0, e1⟩ := idx_facts ⟨(i 0).val / 2000, by omega⟩
  intro a
  match a with
  | ⟨0, _⟩ =>
    show win2_5.index _ (0 : Fin 2) * 2000 ≤ (i 0).val ∧ (i 0).val < win2_5.index _ (0 : Fin 2) * 2000 + 2000
    rw [e0]; show (i 0).val / 2000 * 2000 ≤ (i 0).val ∧ (i 0).val < (i 0).val / 2000 * 2000 + 2000; omega
  | ⟨1, _⟩ =>
    show win2_5.index _ (1 : Fin 2) * 128 ≤ (i 1).val ∧ (i 1).val < win2_5.index _ (1 : Fin 2) * 128 + 128
    rw [e1]; omega

/-- After the region the result holds every node's hidden row followed by its cell row, of the arrays the region was entered with. -/
theorem out_final (c : Dev nD) :
    (dat2 V c).arrAt 5 cfg2.N
      = Cert.Spec.final (V c main_v0_0) (V c main_v26) (V c main_arg4) (V c main_v30) (V c main_v29) :=
  (dat2 V c).arrAt_eq_of_cover 5 _ (fun t _ => out_flushed V c t) out_cover

end Cert.KernelIdeal.FinalValue

end
-- ==== Proof.Chain.lean ====
/-
  The kernel program's result as one function of its arguments.

  The three regions' results (the projection's two halves, the gated child cells, the node update) are threaded through
  the host operations between them: the row gathers of the child states and of the parents' forget rows before the
  second region, the two segment sums before the third. Every buffer a later segment reads is followed back through the
  segment boundaries to the arguments.
-/
import proofs.«143589_j25323127177890_1_alg».proof.Proof.Gen.KernelIdeal.Frame
import proofs.«143589_j25323127177890_1_alg».proof.Proof.Step
import proofs.«143589_j25323127177890_1_alg».proof.Proof.Proj
import proofs.«143589_j25323127177890_1_alg».proof.Proof.Edge
import proofs.«143589_j25323127177890_1_alg».proof.Proof.Final
import Idealize.ShloMosaic.Lib.Pipeline.Value
import Idealize.ShloMosaic.Lib.ValueIdx
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat Cfg Window)

/-- The rows of `t` at the edge endpoints `e`, a negative endpoint first moved up by the row count: the host's gather as printed. -/
def gath (t : (⟨S100000x64, .f32⟩ : BufTy).Contents (Elt Ideal)) (e : (⟨S1600000, .i32⟩ : BufTy).Contents (Elt Ideal)) :
    (⟨S1600000x64, .f32⟩ : BufTy).Contents (Elt Ideal) :=
  Host.gather gather_S100000x64_S1600000x1_S1600000x64_1_0_n_n_0_1_164 t
    (broadcastInDim S1600000x1 ![0] bcast_S1600000_S1600000x1_0
      (select (cmpi .slt e (broadcastInDim S1600000 ![] bcast_S_S1600000 (constantI S_ 32 0#32)))
        (addi e (broadcastInDim S1600000 ![] bcast_S_S1600000 (constantI S_ 32 100000#32))) e))

/-- The rows of `u` summed by endpoint into a table of zeros: the host's scatter-add as printed. -/
def seg (e : (⟨S1600000, .i32⟩ : BufTy).Contents (Elt Ideal)) (u : (⟨S1600000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 e) u

variable (m : (ℓ : Loc nD τ sig) → Buf (Elt Ideal) ℓ) (ρ : Dev nD → PrngReg)

/-! ## After the first region -/

theorem W1_iou (c : Dev nD) :
    W1 m ρ c (Proc.devRef .tc main_v0_0) = Cert.Spec.projIou (m ((c : Thread nD τ).loc main_arg0)) (m ((c : Thread nD τ).loc main_arg3)) :=
  (W1_arr m ρ c 2).trans (Cert.KernelIdeal.ProjValue.iou_final (V0 m ρ) c)

theorem W1_f (c : Dev nD) :
    W1 m ρ c (Proc.devRef .tc main_v0_1) = Cert.Spec.projF (m ((c : Thread nD τ).loc main_arg0)) (m ((c : Thread nD τ).loc main_arg3)) :=
  (W1_arr m ρ c 3).trans (Cert.KernelIdeal.ProjValue.f_final (V0 m ρ) c)

theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg4 (c : Dev nD) : W1 m ρ c (Proc.devRef .tc main_arg4) = m ((c : Thread nD τ).loc main_arg4) := W1_of_ne m ρ c main_arg4 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)
theorem W1_arg7 (c : Dev nD) : W1 m ρ c (Proc.devRef .tc main_arg7) = m ((c : Thread nD τ).loc main_arg7) := W1_of_ne m ρ c main_arg7 (by decide)
theorem W1_arg8 (c : Dev nD) : W1 m ρ c (Proc.devRef .tc main_arg8) = m ((c : Thread nD τ).loc main_arg8) := W1_of_ne m ρ c main_arg8 (by decide)
theorem W1_arg9 (c : Dev nD) : W1 m ρ c (Proc.devRef .tc main_arg9) = m ((c : Thread nD τ).loc main_arg9) := W1_of_ne m ρ c main_arg9 (by decide)

/-! ## After the gathers -/

theorem W2_v7 (c : Dev nD) :
    W2 m ρ c (Proc.devRef .tc main_v7) = gath (W1 m ρ c (Proc.devRef .tc main_arg1)) (W1 m ρ c (Proc.devRef .tc main_arg8)) := by
  show StableHlo.after hostOps1 (W1 m ρ c) (Proc.devRef .tc main_v7) = _
  after_results
  rfl

theorem W2_v14 (c : Dev nD) :
    W2 m ρ c (Proc.devRef .tc main_v14) = gath (W1 m ρ c (Proc.devRef .tc main_arg2)) (W1 m ρ c (Proc.devRef .tc main_arg8)) := by
  show StableHlo.after hostOps1 (W1 m ρ c) (Proc.devRef .tc main_v14) = _
  after_results
  rfl

set_option maxHeartbeats 2000000 in
theorem W2_v21 (c : Dev nD) :
    W2 m ρ c (Proc.devRef .tc main_v21) = gath (W1 m ρ c (Proc.devRef .tc main_v0_1)) (W1 m ρ c (Proc.devRef .tc main_arg9)) := by
  show StableHlo.after hostOps1 (W1 m ρ c) (Proc.devRef .tc main_v21) = _
  after_results
  rfl

set_option maxHeartbeats 2000000 in
theorem W2_v22 (c : Dev nD) :
    W2 m ρ c (Proc.devRef .tc main_v22) = (fun i => shapeCast S1x64 (W1 m ρ c (Proc.devRef .tc main_arg7)) shapeCasts_S64_S1x64 i) := by
  show StableHlo.after hostOps1 (W1 m ρ c) (Proc.devRef .tc main_v22) = _
  after_results
  rfl

set_option maxHeartbeats 4000000 in
theorem W2_keep (c : Dev nD) (b : Ref sig .tc)
    (hb : b = main_arg6 ∨ b = main_v0_0 ∨ b = main_arg9 ∨ b = main_arg4 ∨ b = main_arg5) :
    W2 m ρ c (Proc.devRef .tc b) = W1 m ρ c (Proc.devRef .tc b) := by
  rcases hb with rfl | rfl | rfl | rfl | rfl <;>
  · show StableHlo.after hostOps1 (W1 m ρ c) (Proc.devRef .tc _) = _
    after_results

/-! ## After the second region -/

theorem W3_cf (c : Dev nD) :
    W3 m ρ c (Proc.devRef .tc main_v23)
      = Cert.Spec.edge (W2 m ρ c (Proc.devRef .tc main_v7)) (W2 m ρ c (Proc.devRef .tc main_v14)) (W2 m ρ c (Proc.devRef .tc main_v21))
          (W2 m ρ c (Proc.devRef .tc main_arg6)) (W2 m ρ c (Proc.devRef .tc main_v22)) :=
  (W3_arr m ρ c 5).trans (Cert.KernelIdeal.EdgeValue.cf_final (V2 m ρ) c)

/-- The region reads the child hidden rows and leaves them as they were. -/
theorem W3_v7 (c : Dev nD) : W3 m ρ c (Proc.devRef .tc main_v7) = W2 m ρ c (Proc.devRef .tc main_v7) :=
  (W3_arr m ρ c 0).trans (((dat1 (V2 m ρ) c).arrAt_in 0 rfl _).trans (A_eq1 (V2 m ρ) c 0))

theorem W3_keep (c : Dev nD) (b : Ref sig .tc) (hb : b = main_v0_0 ∨ b = main_arg9 ∨ b = main_arg4 ∨ b = main_arg5) :
    W3 m ρ c (Proc.devRef .tc b) = W2 m ρ c (Proc.devRef .tc b) := by
  rcases hb with rfl | rfl | rfl | rfl <;> exact W3_of_ne m ρ c _ (by decide)

/-! ## After the segment sums -/

theorem W4_v26 (c : Dev nD) :
    W4 m ρ c (Proc.devRef .tc main_v26) = seg (W3 m ρ c (Proc.devRef .tc main_arg9)) (W3 m ρ c (Proc.devRef .tc main_v7)) := by
  show StableHlo.after hostOps2 (W3 m ρ c) (Proc.devRef .tc main_v26) = _
  after_results
  rfl

theorem W4_v29 (c : Dev nD) :
    W4 m ρ c (Proc.devRef .tc main_v29) = seg (W3 m ρ c (Proc.devRef .tc main_arg9)) (W3 m ρ c (Proc.devRef .tc main_v23)) := by
  show StableHlo.after hostOps2 (W3 m ρ c) (Proc.devRef .tc main_v29) = _
  after_results
  rfl

theorem W4_v30 (c : Dev nD) :
    W4 m ρ c (Proc.devRef .tc main_v30) = (fun i => shapeCast S1x192 (W3 m ρ c (Proc.devRef .tc main_arg5)) shapeCasts_S192_S1x192 i) := by
  show StableHlo.after hostOps2 (W3 m ρ c) (Proc.devRef .tc main_v30) = _
  after_results
  rfl

theorem W4_keep (c : Dev nD) (b : Ref sig .tc) (hb : b = main_v0_0 ∨ b = main_arg4) :
    W4 m ρ c (Proc.devRef .tc b) = W3 m ρ c (Proc.devRef .tc b) := by
  rcases hb with rfl | rfl <;>
  · show StableHlo.after hostOps2 (W3 m ρ c) (Proc.devRef .tc _) = _
    after_results

/-! ## After the third region -/

theorem W5_out (c : Dev nD) :
    W5 m ρ c (Proc.devRef .tc main_v31)
      = Cert.Spec.final (W4 m ρ c (Proc.devRef .tc main_v0_0)) (W4 m ρ c (Proc.devRef .tc main_v26)) (W4 m ρ c (Proc.devRef .tc main_arg4))
          (W4 m ρ c (Proc.devRef .tc main_v30)) (W4 m ρ c (Proc.devRef .tc main_v29)) :=
  (W5_arr m ρ c 5).trans (Cert.KernelIdeal.FinalValue.out_final (V4 m ρ) c)

/-! ## A bias vector reshaped to one row is the bias read at the column -/

theorem row64_eq (v : (⟨S64, .f32⟩ : BufTy).Contents (Elt Ideal)) :
    (fun i => shapeCast S1x64 v shapeCasts_S64_S1x64 i) = Cert.Spec.row64 v := by
  funext i
  unfold Cert.Spec.row64
  refine shapeCast_apply v _ i _ ?_
  rw [Shape.rowMajor_val_one, Shape.rowMajor_val_two]
  have h0 : (i 0).val < 1 := idx2_lt0 i
  show (i 1).val = (i 0).val * 64 + (i 1).val
  omega

theorem row192_eq (v : (⟨S192, .f32⟩ : BufTy).Contents (Elt Ideal)) :
    (fun i => shapeCast S1x192 v shapeCasts_S192_S1x192 i) = Cert.Spec.row192 v := by
  funext i
  unfold Cert.Spec.row192
  refine shapeCast_apply v _ i _ ?_
  rw [Shape.rowMajor_val_one, Shape.rowMajor_val_two]
  have h0 : (i 0).val < 1 := idx2_lt0 i
  show (i 1).val = (i 0).val * 192 + (i 1).val
  omega

/-! ## The result buffer -/

/-- The result buffer at the last segment boundary is the step over the program's own gather and segment sum. -/
theorem result (c : Dev nD) :
    W5 m ρ c (Proc.devRef .tc main_v31)
      = Cert.Spec.step gath seg (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  rw [W5_out, W4_v26, W4_v29, W4_v30, W4_keep m ρ c main_v0_0 (.inl rfl), W4_keep m ρ c main_arg4 (.inr rfl),
    W3_cf, W3_v7, W3_keep m ρ c main_v0_0 (.inl rfl), W3_keep m ρ c main_arg9 (.inr (.inl rfl)),
    W3_keep m ρ c main_arg4 (.inr (.inr (.inl rfl))), W3_keep m ρ c main_arg5 (.inr (.inr (.inr rfl))),
    W2_v7, W2_v14, W2_v21, W2_v22, W2_keep m ρ c main_arg6 (.inl rfl), W2_keep m ρ c main_v0_0 (.inr (.inl rfl)),
    W2_keep m ρ c main_arg9 (.inr (.inr (.inl rfl))), W2_keep m ρ c main_arg4 (.inr (.inr (.inr (.inl rfl)))),
    W2_keep m ρ c main_arg5 (.inr (.inr (.inr (.inr rfl)))),
    W1_iou, W1_f, W1_arg1, W1_arg2, W1_arg4, W1_arg5, W1_arg6, W1_arg7, W1_arg8, W1_arg9, row64_eq, row192_eq]
  rfl

end Cert.KernelIdeal.Chain

end
-- ==== Proof.RefSide.lean ====
/-
  The reference program's result as the same step.

  Stage by stage: the dot-general against the transposed weights is the projection, its two column slices the gates' and
  the forget gate's halves; jax's expansion 1 / (1 + e⁻ᵗ) of the logistic function is the logistic function; the
  bias broadcast through a one-row matrix is the bias read at the column; the concatenation reads the hidden row on
  columns below 64 and the cell row above. The gathers and the segment sums are carried as they are printed.
-/
import proofs.«143589_j25323127177890_1_alg».proof.Proof.Gen.ReferenceIdeal.Read
import proofs.«143589_j25323127177890_1_alg».proof.Proof.Step
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- Two indices of a rank-2 shape with definitionally equal coordinates. -/
macro "idx2_rfl" : tactic => `(tactic| (refine funext fun a => ?_; match a with | ⟨0, _⟩ => rfl | ⟨1, _⟩ => rfl))

/-- The rows of `t` at the edge endpoints `e`, a negative endpoint first moved up by the row count: the host's gather as printed. -/
def gath (t : (⟨S100000x64, .f32⟩ : BufTy).Contents (Elt Ideal)) (e : (⟨S1600000, .i32⟩ : BufTy).Contents (Elt Ideal)) :
    (⟨S1600000x64, .f32⟩ : BufTy).Contents (Elt Ideal) :=
  Host.gather gather_S100000x64_S1600000x1_S1600000x64_1_0_n_n_0_1_164 t
    (broadcastInDim S1600000x1 ![0] bcast_S1600000_S1600000x1_0
      (select (cmpi .slt e (broadcastInDim S1600000 ![] bcast_S_S1600000 (constantI S_ 32 0#32)))
        (addi e (broadcastInDim S1600000 ![] bcast_S_S1600000 (constantI S_ 32 100000#32))) e))

/-- The rows of `u` summed by endpoint into a table of zeros: the host's scatter-add as printed. -/
def seg (e : (⟨S1600000, .i32⟩ : BufTy).Contents (Elt Ideal)) (u : (⟨S1600000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 e) u

section
variable (x0 : (⟨S100000x128, .f32⟩ : BufTy).Contents (Elt Ideal)) (x1 x2 : (⟨S100000x64, .f32⟩ : BufTy).Contents (Elt Ideal))
  (x3 : (⟨S256x128, .f32⟩ : BufTy).Contents (Elt Ideal)) (x4 : (⟨S192x64, .f32⟩ : BufTy).Contents (Elt Ideal))
  (x5 : (⟨S192, .f32⟩ : BufTy).Contents (Elt Ideal)) (x6 : (⟨S64x64, .f32⟩ : BufTy).Contents (Elt Ideal))
  (x7 : (⟨S64, .f32⟩ : BufTy).Contents (Elt Ideal)) (x8 x9 : (⟨S1600000, .i32⟩ : BufTy).Contents (Elt Ideal))

/-! ## The gathers and the segment sums, as printed -/

theorem v10_eq : val_main_v10 (F := Ideal) x1 x8 = gath x1 x8 := rfl
theorem v17_eq : val_main_v17 (F := Ideal) x2 x8 = gath x2 x8 := rfl
theorem v27_eq : val_main_v27 (F := Ideal) x0 x3 x9 = gath (val_main_v3 (F := Ideal) x0 x3) x9 := rfl
theorem v20_eq : val_main_v20 (F := Ideal) x1 x8 x9 = seg x9 (val_main_v10 (F := Ideal) x1 x8) := rfl
theorem v43_eq : val_main_v43 (F := Ideal) x0 x1 x2 x3 x6 x7 x8 x9 = seg x9 (val_main_v40 (F := Ideal) x0 x1 x2 x3 x6 x7 x8 x9) := rfl

/-! ## The projection -/

theorem v2_eq : val_main_v2 (F := Ideal) x0 x3 = Cert.Spec.projIou x0 x3 := by
  funext i
  rw [val_main_v2_apply, val_main_v1_apply]
  unfold Cert.Spec.projIou
  refine Finset.sum_congr rfl fun k _ => ?_
  rw [val_main_v0_apply]
  rw [show lidx_main_v1 (idx_main_v2 i) k = ix2 (⟨(i 0).val, idx2_lt0 i⟩ : Fin 100000) k from by idx2_rfl,
    show idx_main_v0 (ridx_main_v1 (idx_main_v2 i) k) = ix2 (⟨(i 1).val, Nat.lt_trans (idx2_lt1 i) (by decide)⟩ : Fin 256) k from by idx2_rfl]

theorem v3_eq : val_main_v3 (F := Ideal) x0 x3 = Cert.Spec.projF x0 x3 := by
  funext i
  rw [val_main_v3_apply, val_main_v1_apply]
  unfold Cert.Spec.projF
  refine Finset.sum_congr rfl fun k _ => ?_
  rw [val_main_v0_apply]
  rw [show lidx_main_v1 (idx_main_v3 i) k = ix2 (⟨(i 0).val, idx2_lt0 i⟩ : Fin 100000) k from by idx2_rfl,
    show idx_main_v0 (ridx_main_v1 (idx_main_v3 i) k) = ix2 (⟨(i 1).val + 192, Nat.add_lt_add_right (idx2_lt1 i) 192⟩ : Fin 256) k from
      funext fun a => Fin.ext (by match a with | ⟨0, _⟩ => exact Nat.add_comm _ _ | ⟨1, _⟩ => rfl)]

/-! ## The gated child cells -/

/-- The edge's child hidden row against the rows of the forget weights. -/
theorem dot29 (i : S1600000x64.Idx) :
    (∑ k : Fin 64, val_main_v10 (F := Ideal) x1 x8 (lidx_main_v29 i k) * val_main_v28 (F := Ideal) x6 (ridx_main_v29 i k))
      = ∑ k : Fin 64, val_main_v10 (F := Ideal) x1 x8 (ix2 (⟨(i 0).val, idx2_lt0 i⟩ : Fin 1600000) k) * x6 (ix2 (⟨(i 1).val, idx2_lt1 i⟩ : Fin 64) k) :=
  Finset.sum_congr rfl fun k _ => by
    rw [val_main_v28_apply,
      show lidx_main_v29 i k = ix2 (⟨(i 0).val, idx2_lt0 i⟩ : Fin 1600000) k from by idx2_rfl,
      show idx_main_v28 (ridx_main_v29 i k) = ix2 (⟨(i 1).val, idx2_lt1 i⟩ : Fin 64) k from by idx2_rfl]

/-- The forget bias, broadcast through a one-row matrix, read at an entry is the bias at the column. -/
theorem bias32 (i : S1600000x64.Idx) :
    x7 (idx_main_v31 (idx_main_v32 i)) = x7 (ix1 (⟨((ix2 (0 : Fin 1) (⟨(i 1).val, idx2_lt1 i⟩ : Fin 64) : (⟨2, ![1, 64]⟩ : Shape).Idx) 1).val, idx2_lt1 _⟩ : Fin 64)) :=
  congrArg x7 (funext fun a => match a with | ⟨0, _⟩ => rfl)

theorem v40_eq : val_main_v40 (F := Ideal) x0 x1 x2 x3 x6 x7 x8 x9
    = Cert.Spec.edge (val_main_v10 (F := Ideal) x1 x8) (val_main_v17 (F := Ideal) x2 x8) (val_main_v27 (F := Ideal) x0 x3 x9) x6 (Cert.Spec.row64 x7) := by
  funext i
  rw [val_main_v40_apply, val_main_v39_apply, val_main_v38_apply, val_main_cst_6_apply, val_main_v37_apply, val_main_v36_apply,
    val_main_cst_5_apply, val_main_v35_apply, val_main_v34_apply, val_main_v33_apply, val_main_v30_apply, val_main_v29_apply,
    val_main_v32_apply, val_main_v31_apply, dot29, bias32 x7 i]
  unfold Cert.Spec.edge Cert.Spec.row64
  simp only [Ideal.ofBits_def, Ideal.ofBits_one_f32]
  rfl

/-! ## The node update -/

/-- The node's summed child hidden row against the rows of the gate weights. -/
theorem dot45 (i : S100000x192.Idx) :
    (∑ k : Fin 64, val_main_v20 (F := Ideal) x1 x8 x9 (lidx_main_v45 i k) * val_main_v44 (F := Ideal) x4 (ridx_main_v45 i k))
      = ∑ k : Fin 64, val_main_v20 (F := Ideal) x1 x8 x9 (ix2 (⟨(i 0).val, idx2_lt0 i⟩ : Fin 100000) k) * x4 (ix2 (⟨(i 1).val, idx2_lt1 i⟩ : Fin 192) k) :=
  Finset.sum_congr rfl fun k _ => by
    rw [val_main_v44_apply,
      show lidx_main_v45 i k = ix2 (⟨(i 0).val, idx2_lt0 i⟩ : Fin 100000) k from by idx2_rfl,
      show idx_main_v44 (ridx_main_v45 i k) = ix2 (⟨(i 1).val, idx2_lt1 i⟩ : Fin 192) k from by idx2_rfl]

theorem bias48 (i : S100000x192.Idx) :
    x5 (idx_main_v47 (idx_main_v48 i)) = x5 (ix1 (⟨((ix2 (0 : Fin 1) (⟨(i 1).val, idx2_lt1 i⟩ : Fin 192) : (⟨2, ![1, 192]⟩ : Shape).Idx) 1).val, idx2_lt1 _⟩ : Fin 192)) :=
  congrArg x5 (funext fun a => match a with | ⟨0, _⟩ => rfl)

theorem v49_eq : val_main_v49 (F := Ideal) x0 x1 x3 x4 x5 x8 x9
    = Cert.Spec.gates (val_main_v2 (F := Ideal) x0 x3) (val_main_v20 (F := Ideal) x1 x8 x9) x4 (Cert.Spec.row192 x5) := by
  funext i
  rw [val_main_v49_apply, val_main_v46_apply, val_main_v45_apply, val_main_v48_apply, val_main_v47_apply, dot45, bias48 x5 i]
  unfold Cert.Spec.gates Cert.Spec.row192
  rfl

theorem v61_eq : val_main_v61 (F := Ideal) x0 x1 x2 x3 x4 x5 x6 x7 x8 x9
    = Cert.Spec.cell (val_main_v49 (F := Ideal) x0 x1 x3 x4 x5 x8 x9) (val_main_v43 (F := Ideal) x0 x1 x2 x3 x6 x7 x8 x9) := by
  funext i
  rw [val_main_v61_apply, val_main_v60_apply, val_main_v58_apply, val_main_v57_apply, val_main_cst_9_apply, val_main_v56_apply,
    val_main_v55_apply, val_main_cst_8_apply, val_main_v54_apply, val_main_v53_apply, val_main_v50_apply, val_main_v59_apply,
    val_main_v52_apply,
    show idx_main_v50 i = ix2 (⟨(i 0).val, idx2_lt0 i⟩ : Fin 100000) (⟨(i 1).val, Nat.lt_trans (idx2_lt1 i) (by decide)⟩ : Fin 192) from by idx2_rfl,
    show idx_main_v52 i = ix2 (⟨(i 0).val, idx2_lt0 i⟩ : Fin 100000) (⟨(i 1).val + 128, Nat.add_lt_add_right (idx2_lt1 i) 128⟩ : Fin 192) from
      funext fun a => Fin.ext (by match a with | ⟨0, _⟩ => rfl | ⟨1, _⟩ => exact Nat.add_comm _ _)]
  unfold Cert.Spec.cell
  simp only [Ideal.ofBits_def, Ideal.ofBits_one_f32]
  rfl

theorem v69_eq : val_main_v69 (F := Ideal) x0 x1 x2 x3 x4 x5 x6 x7 x8 x9
    = Cert.Spec.hidden (val_main_v49 (F := Ideal) x0 x1 x3 x4 x5 x8 x9) (val_main_v61 (F := Ideal) x0 x1 x2 x3 x4 x5 x6 x7 x8 x9) := by
  funext i
  rw [val_main_v69_apply, val_main_v67_apply, val_main_v66_apply, val_main_cst_11_apply, val_main_v65_apply, val_main_v64_apply,
    val_main_cst_10_apply, val_main_v63_apply, val_main_v62_apply, val_main_v51_apply, val_main_v68_apply,
    show idx_main_v51 i = ix2 (⟨(i 0).val, idx2_lt0 i⟩ : Fin 100000) (⟨(i 1).val + 64, Nat.lt_trans (Nat.add_lt_add_right (idx2_lt1 i) 64) (by decide)⟩ : Fin 192) from
      funext fun a => Fin.ext (by match a with | ⟨0, _⟩ => rfl | ⟨1, _⟩ => exact Nat.add_comm _ _)]
  unfold Cert.Spec.hidden
  simp only [Ideal.ofBits_def, Ideal.ofBits_one_f32]
  rfl

/-- The result row: the hidden row on columns below 64, the cell row on the rest. -/
theorem v70_final : val_main_v70 (F := Ideal) x0 x1 x2 x3 x4 x5 x6 x7 x8 x9
    = Cert.Spec.final (val_main_v2 (F := Ideal) x0 x3) (val_main_v20 (F := Ideal) x1 x8 x9) x4 (Cert.Spec.row192 x5)
        (val_main_v43 (F := Ideal) x0 x1 x2 x3 x6 x7 x8 x9) := by
  funext i
  unfold val_main_v70 Cert.Spec.final
  rw [← v49_eq x0 x1 x3 x4 x5 x8 x9, ← v61_eq x0 x1 x2 x3 x4 x5 x6 x7 x8 x9, ← v69_eq x0 x1 x2 x3 x4 x5 x6 x7 x8 x9]
  by_cases h : (i 1).val < 64
  · rw [dif_pos h]
    exact concatenate_pair_apply_left (t := S100000x128) (s₁ := S100000x64) (s₂ := S100000x64) (1 : Fin 2) _ _ _ i rfl _ (fun b => match b with | ⟨0, _⟩ => rfl | ⟨1, _⟩ => rfl)
  · rw [dif_neg h]
    refine concatenate_pair_apply_right (t := S100000x128) (s₁ := S100000x64) (s₂ := S100000x64) (1 : Fin 2) _ _ _ i rfl rfl _ (fun b hb => ?_) ?_
    · match b, hb with
      | ⟨0, _⟩, _ => rfl
      | ⟨1, _⟩, hb => exact absurd rfl hb
    · have := idx2_lt1 i
      show (i 1).val - 64 + 64 = (i 1).val
      omega

/-- The reference's result is the step over its own gather and segment sum. -/
theorem v70_step : val_main_v70 (F := Ideal) x0 x1 x2 x3 x4 x5 x6 x7 x8 x9
    = Cert.Spec.step gath seg x0 x1 x2 x3 x4 x5 x6 x7 x8 x9 := by
  rw [v70_final, v43_eq, v40_eq, v20_eq, v27_eq, v17_eq, v10_eq, v2_eq, v3_eq]
  rfl

end

end Cert.ReferenceIdeal.RefValue

end
-- ==== Proof.lean ====
/-
  A child-sum tree-LSTM step: a three-region kernel against its plain reference, over the extended reals.

  Both programs compute, from node inputs x, child states h and c, weights and edge endpoints src, dst:
    the projection x · wᵀ, split into the gates' columns and the forget gate's columns;
    along each edge the child's rows gathered at src and the parent's forget row gathered at dst, and the gated child
    cell  σ(f[dst] + h[src] · u_fᵀ + b_f) · c[src];
    per node the sums over its incoming edges of the child hidden rows and of the gated child cells;
    and the node update  g = iou + h̃ · uᵀ + b,  c' = σ(g_i) · tanh(g_u) + c̃,  h' = σ(g_o) · tanh(c'),  result [h', c'].
  The kernel does the projection, the edge gate and the node update in three pipelined regions (the products taken on
  operands rounded to bf16, which changes nothing on the extended reals) and leaves the gathers and the segment sums to
  the host; the reference does everything on the host, with the logistic function spelled 1 / (1 + e⁻ᵗ). The sums are
  taken in the same order and association on both sides, so no law of the extended reals beyond the operations' own
  definitions is needed, and the precondition is not used: the two results are one function of the arguments, the
  step of Proof/Step.lean over one and the same gather and segment sum.

  The three frames are the generated ones (the reference's is its generated run with the result dropped).
-/
import proofs.«143589_j25323127177890_1_alg».proof.Defs
import proofs.«143589_j25323127177890_1_alg».proof.Proof.Gen.Kernel
import proofs.«143589_j25323127177890_1_alg».proof.Proof.Gen.Kernel.Frame
import proofs.«143589_j25323127177890_1_alg».proof.Proof.Gen.KernelIdeal
import proofs.«143589_j25323127177890_1_alg».proof.Proof.Gen.KernelIdeal.Frame
import proofs.«143589_j25323127177890_1_alg».proof.Proof.Gen.ReferenceIdeal
import proofs.«143589_j25323127177890_1_alg».proof.Proof.Gen.Pre_finite_inputs
import proofs.«143589_j25323127177890_1_alg».proof.Proof.Gen.ReferenceIdeal.Run
import proofs.«143589_j25323127177890_1_alg».proof.Proof.Gen.ReferenceIdeal.Read
import proofs.«143589_j25323127177890_1_alg».proof.Proof.KRun
import proofs.«143589_j25323127177890_1_alg».proof.Proof.Chain
import proofs.«143589_j25323127177890_1_alg».proof.Proof.RefSide
import Idealize.ShloMosaic.Adequacy
import Idealize.ShloMosaic.Init

noncomputable section

namespace Cert.Proof

open Idealize.ShloMosaic Idealize.SL.Sem

/-- The two programs print one and the same row gather … -/
theorem gath_eq : Cert.KernelIdeal.Chain.gath = Cert.ReferenceIdeal.RefValue.gath := rfl

/-- … and one and the same segment sum. -/
theorem seg_eq : Cert.KernelIdeal.Chain.seg = Cert.ReferenceIdeal.RefValue.seg := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the step of the arguments in their result buffer. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Chain.result m ρ c), (h c).2⟩)
      (Cert.KernelIdeal.ResultRun.run_result (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v70_eq, Cert.ReferenceIdeal.RefValue.v70_step, e0, e1, e2, e3, e4, e5, e6, e7, e8, e9,
    gath_eq, seg_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
